-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x2048 32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S1024x512 : Shape := ⟨2, ![1024, 512]⟩
abbrev S2048x512 : Shape := ⟨2, ![2048, 512]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 35
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096, .f32⟩
  | .hbm, ⟨3, _⟩ => ⟨S_, .i32⟩
  | .hbm, ⟨4, _⟩ => ⟨S4096x2048, .i32⟩
  | .hbm, ⟨5, _⟩ => ⟨S4096x2048, .i32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i1⟩
  | .hbm, ⟨15, _⟩ => ⟨S_, .i32⟩
  | .hbm, ⟨16, _⟩ => ⟨S4096x2048, .i32⟩
  | .hbm, ⟨17, _⟩ => ⟨S4096x2048, .i32⟩
  | .hbm, ⟨18, _⟩ => ⟨S4096x2048, .i32⟩
  | .hbm, ⟨19, _⟩ => ⟨S_, .i32⟩
  | .hbm, ⟨20, _⟩ => ⟨S4096x2048, .i32⟩
  | .hbm, ⟨21, _⟩ => ⟨S4096x2048, .i1⟩
  | .hbm, ⟨22, _⟩ => ⟨S_, .i32⟩
  | .hbm, ⟨23, _⟩ => ⟨S4096x2048, .i32⟩
  | .hbm, ⟨24, _⟩ => ⟨S4096x2048, .i32⟩
  | .hbm, ⟨25, _⟩ => ⟨S4096x2048, .i32⟩
  | .hbm, ⟨26, _⟩ => ⟨S4096x2048x1, .i32⟩
  | .hbm, ⟨27, _⟩ => ⟨S4096x2048x1, .i32⟩
  | .hbm, ⟨28, _⟩ => ⟨S4096x2048x2, .i32⟩
  | .hbm, ⟨29, _⟩ => ⟨S4096x4096, .i32⟩
  | .hbm, ⟨30, _⟩ => ⟨S4096x4096, .bf16⟩
  | .hbm, ⟨31, _⟩ => ⟨S1x4096, .f32⟩
  | .hbm, ⟨32, _⟩ => ⟨S8192x4096, .bf16⟩
  | .hbm, ⟨33, _⟩ => ⟨S8192x1, .f32⟩
  | .hbm, ⟨34, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1024x1, .f32⟩
  | .local _ .vmem, ⟨11, _⟩ => ⟨S1024x1, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x4096.size a
  hwx1_3 : ∀ i : grid1.Coords, EltTy.bits .f32 = 32 ∨ (Rect.block (s := S1x4096) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S8192x4096.size a
  hwx1_4 : ∀ i : grid1.Coords, EltTy.bits .f32 = 32 ∨ (Rect.block (s := S8192x4096) S1024x2048.size (cc1_transform_4 i) (hinb1_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .i32⟩
  | .hbm, ⟨25, _⟩ => ⟨S4096x2048, .i32⟩
  | .hbm, ⟨26, _⟩ => ⟨S4096x2048, .i32⟩
  | .hbm, ⟨27, _⟩ => ⟨S_, .i32⟩
  | .hbm, ⟨28, _⟩ => ⟨S4096x2048, .i32⟩
  | .hbm, ⟨29, _⟩ => ⟨S4096x2048, .i32⟩
  | .hbm, ⟨30, _⟩ => ⟨S_, .i32⟩
  | .hbm, ⟨31, _⟩ => ⟨S4096x2048, .i32⟩
  | .hbm, ⟨32, _⟩ => ⟨S4096x2048, .i32⟩
  | .hbm, ⟨33, _⟩ => ⟨S_, .i32⟩
  | .hbm, ⟨34, _⟩ => ⟨S4096x2048, .i32⟩
  | .hbm, ⟨35, _⟩ => ⟨S4096x2048, .i1⟩
  | .hbm, ⟨36, _⟩ => ⟨S_, .i32⟩
  | .hbm, ⟨37, _⟩ => ⟨S4096x2048, .i32⟩
  | .hbm, ⟨38, _⟩ => ⟨S4096x2048, .i32⟩
  | .hbm, ⟨39, _⟩ => ⟨S4096x2048, .i32⟩
  | .hbm, ⟨40, _⟩ => ⟨S_, .i32⟩
  | .hbm, ⟨41, _⟩ => ⟨S4096x2048, .i32⟩
  | .hbm, ⟨42, _⟩ => ⟨S4096x2048, .i1⟩
  | .hbm, ⟨43, _⟩ => ⟨S_, .i32⟩
  | .hbm, ⟨44, _⟩ => ⟨S4096x2048, .i32⟩
  | .hbm, ⟨45, _⟩ => ⟨S4096x2048, .i32⟩
  | .hbm, ⟨46, _⟩ => ⟨S4096x2048, .i32⟩
  | .hbm, ⟨47, _⟩ => ⟨S4096x2048x1, .i32⟩
  | .hbm, ⟨48, _⟩ => ⟨S4096x2048x1, .i32⟩
  | .hbm, ⟨49, _⟩ => ⟨S4096x2048x2, .i32⟩
  | .hbm, ⟨50, _⟩ => ⟨S4096x4096, .i32⟩
  | .hbm, ⟨51, _⟩ => ⟨S4096x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_c_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_v23 : Ref sig .tc := ⟨.hbm, 42, rfl⟩
abbrev main_c_9 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.QuantRegion.lean ====
/-
  The activation-quantisation region: one grid axis of 16 points, point t reading rows 512·t … 512·t+511 of x and
  writing the same rows of the quantised activations (window 1) and of the per-row scale (window 2).
  Per point the body loads the whole 512×4096 block, stores the block of quantised values and the block of scales,
  each through one rectangle that is the whole staging buffer; nothing is carried from point to point.
  This module states what each output's staging buffer holds after the body as a function of the input block,
  proves the body's triple, and packages the pipeline's proof data and its body obligation, at any float instance
  and at any contents V of the core's buffers at the region's entry.
-/
import proofs.«422675_j1176821039708_3_alg».proof.Proof.Gen.KernelIdeal.Launch
import proofs.«422675_j1176821039708_3_alg».proof.Proof.Gen.KernelIdeal.Skeleton
import proofs.«422675_j1176821039708_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point: it is fetched at every point. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole 512×4096 staging buffer as a rectangle, and the whole 512×1 one. -/
abbrev rX : Rect S512x4096 := Rect.unit (s := S512x4096) ![0, 0] S512x4096.size inb_S512x4096_S512x4096_0_0
abbrev rS : Rect S512x1 := Rect.unit (s := S512x1) ![0, 0] S512x1.size inb_S512x1_S512x1_0_0

/-- What the body leaves in the quantised-activations buffer: one store of the whole block. -/
def outQ (x0 : Vec F S512x4096 .f32) : Vec F S512x4096 .bf16 :=
  View.canon [⟨rX, k0_pay2 (View.ld x0 rX)⟩]

/-- What the body leaves in the scale buffer: one store of the whole column. -/
def outS (x0 : Vec F S512x4096 .f32) : Vec F S512x1 .f32 :=
  View.canon [⟨rS, k0_pay1 (View.ld x0 rX)⟩]

theorem coverQ (p0 : Vec F S512x4096 .bf16) (y : S512x4096.Idx) :
    ∃ pc ∈ ([⟨rX, p0⟩] : List (View.Piece (Elt F) S512x4096 .bf16)), y ∈ pc.1.set :=
  View.cover_of_tiled [⟨rX, p0⟩] S512x4096.size (by rfl) y

theorem coverS (p0 : Vec F S512x1 .f32) (y : S512x1.Idx) :
    ∃ pc ∈ ([⟨rS, p0⟩] : List (View.Piece (Elt F) S512x1 .f32)), y ∈ pc.1.set :=
  View.cover_of_tiled [⟨rS, p0⟩] S512x1.size (by rfl) y

set_option maxHeartbeats 1000000 in
/-- The body on whole staging memrefs: the input's contents are kept, each output ends at its one store. -/
theorem sound_kernel (c : Dev nD) (E : Set ℕ) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outQ x0) ∗ owns (c : Thread nD τ) arg3 fullShare (outS x0)) -∗ K ⟨⟩))
      ⊢ wp frame (wpE (defs₀ (F := F)) Variants.none c none) E (cc0__quant_kernel i arg1 harg1 arg2 harg2 arg3 harg3) K := by
  simp only [cc0__quant_kernel_eq_skeleton]; unfold cc0__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverQ _)
  iexists _; isplitr
  swap; · iexact H2
  ipureintro
  exact View.read_writes_eq_canon _ _ _ (coverS _)

/-- The region's proof data on core c: the arrays as found; after the body the input buffer at its block and each
    output buffer at its store of that block; the invariant says nothing of the scratch; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => outQ (iblk V c 0 t)
    | ⟨2, _⟩ => outS (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = outQ (iblk V c 0 t) := by dsimp only [dat]
theorem after_2 (c : Dev nD) (t : Fin cfg0.N) : (dat V c).after 2 t = outS (iblk V c 0 t) := by dsimp only [dat]

theorem before_0 (c : Dev nD) (t : Fin cfg0.N) (d) : (dat V c).before 0 t d = iblk V c 0 t :=
  before_in_of V (dat V c) (A_eq V c 0) (after_0 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the region, at every point. -/
theorem body_obligation (c : Dev nD) : BodyObligation (dat (F := F) V c) (defs₀ (F := F)) Variants.none () Set.univ := fun t => by
  rw [bigSep_W0, bigSep_W0]
  exact sound_body V c t

end Cert.KernelIdeal.Quant

end
-- ==== Proof.MatmulRuns.lean ====
/-
  The matmul region's body, run case by case. The grid is 8 × 2 × 8 and the innermost coordinate k walks the
  contraction: at k = 0 the body clears the accumulator scratch and adds the first partial product into it; at
  0 < k < 7 it adds the next partial product; at k = 7 it adds the last one and stores the accumulator times the
  outer product of the row scales and the column scales into the output block. Each case is the body's triple on
  whole memrefs, the pieces the stores leave found by the run.
-/
import proofs.«422675_j1176821039708_3_alg».proof.Proof.Gen.KernelIdeal.Launch
import proofs.«422675_j1176821039708_3_alg».proof.Proof.Gen.KernelIdeal.Skeleton
import proofs.«422675_j1176821039708_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: the contraction coordinate is 0. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)
/-- The second conditional: the contraction coordinate is 7, the last. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

set_option maxHeartbeats 1000000 in
/-- k = 0: the scratch, at anything, is cleared and then holds the first partial product. -/
noncomputable def runFirst (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : condFirst i) (hc1 : ¬condLast i)
    (x0 : Vec F S1024x512 .bf16) (x1 : Vec F S2048x512 .bf16) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- 0 < k < 7: the scratch, at the running sum, takes the next partial product. -/
noncomputable def runMid (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬condFirst i) (hc1 : ¬condLast i)
    (x0 : Vec F S1024x512 .bf16) (x1 : Vec F S2048x512 .bf16) (xs0 : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg8 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- k = 7: the scratch takes the last partial product, and the output block the finished sum times the scales. -/
noncomputable def runLast (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬condFirst i) (hc1 : condLast i)
    (x0 : Vec F S1024x512 .bf16) (x1 : Vec F S2048x512 .bf16) (x2 : Vec F S1024x1 .f32) (x3 : Vec F S1x2048 .f32) (xs0 : Vec F S1024x2048 .f32) :
    Σ' (L4 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS0

end Cert.KernelIdeal.Matmul

end
-- ==== Proof.MatmulRegion.lean ====
/-
  The matmul region as a pipeline: what the accumulator scratch holds after each grid point, what the output block
  holds at the points that store it, the invariant that carries the scratch from point to point, the proof data and
  the body obligation; at any float instance and at any contents V of the core's buffers at the region's entry.

  The grid is 8 × 2 × 8, point t = (i·2 + j)·8 + k. After point t the scratch holds
      acc t = (if k = 0 then 0 else acc (t-1)) + x-block(i,k) · w-block(j,k)ᵀ,
  written with the body's own payload terms, and at k = 7 the output block (i, j) is stored as
      acc t · (xs-block(i) ⊗ ws-block(j)).
  At the other points the output window is idle: its buffer is handed back as found and is not written back.
-/
import proofs.«422675_j1176821039708_3_alg».proof.Proof.Gen.KernelIdeal.Launch
import proofs.«422675_j1176821039708_3_alg».proof.Proof.Gen.KernelIdeal.Skeleton
import proofs.«422675_j1176821039708_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«422675_j1176821039708_3_alg».proof.Proof.MatmulRuns
set_option maxRecDepth 16384

noncomputable section
namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows hold their blocks, fetched at the point or not -/

theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem idle4 : ∀ t : Fin cfg1.N, ¬condLast (grid1.coords t) → cfg1.idle 4 (grid1.coords t) = true := by decide +kernel
theorem noFlush4 : ∀ t : Fin cfg1.N, ¬condLast (grid1.coords t) → (cfg1.win 4).flush t = false := by decide +kernel
theorem live4 : ∀ t : Fin cfg1.N, condLast (grid1.coords t) → cfg1.idle 4 (grid1.coords t) = false := by decide +kernel

/-! ## The memrefs the body is called with -/

abbrev ms0 (t : Fin cfg1.N) : Memref sig .tc .vmem S1024x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2048 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x2048 .f32 := win1_4.stage (cfg1.slots t 4)
abbrev hs4 (t : Fin cfg1.N) : (ms4 t).IsWhole := hstage1_4 ((cfg1.slots t 4).cast nbuf1_4)
/-- The accumulator scratch. -/
abbrev scM : Memref sig .tc .vmem S1024x2048 .f32 := Memref.whole cc1_scratch0

/-! ## What each case's stores leave, as the body's own payload terms -/

theorem hz2 : (![0, 0] : Fin 2 → Nat) = fun _ => 0 := by
  funext a; match a with | ⟨0, _⟩ => rfl | ⟨1, _⟩ => rfl

section Pieces
variable (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole)

theorem coverFirst (hc0 : condFirst i) (hc1 : ¬condLast i) (x0 : Vec F S1024x512 .bf16) (x1 : Vec F S2048x512 .bf16) (y : S1024x2048.Idx) :
    ∃ pc ∈ (runFirst c i arg3 harg3 arg4 harg4 arg5 harg5 arg6 harg6 arg7 harg7 arg8 harg8 hc0 hc1 x0 x1).1, y ∈ pc.1.set :=
  View.cover_of_tiledL (runFirst c i arg3 harg3 arg4 harg4 arg5 harg5 arg6 harg6 arg7 harg7 arg8 harg8 hc0 hc1 x0 x1).1 S1024x2048.size (by sl_kernel_rfl) y

/-- k = 0 leaves the cleared accumulator plus the first partial product. -/
theorem piecesFirst (hc0 : condFirst i) (hc1 : ¬condLast i) (x0 : Vec F S1024x512 .bf16) (x1 : Vec F S2048x512 .bf16) :
    View.canon (runFirst c i arg3 harg3 arg4 harg4 arg5 harg5 arg6 harg6 arg7 harg7 arg8 harg8 hc0 hc1 x0 x1).1 = k1_pay2 (k1_pay1 (F := F)) x0 x1 := by
  unfold runFirst
  dsimp only
  sl_unfold_words
  rw [View.canon_cons_unit_zero (S := S1024x2048) hz2]
  simp only [View.readAt_eq_ld, harg3.read_unread, harg4.read_unread, View.ld_unit_zero (S := S1024x512) hz2,
    View.ld_unit_zero (S := S2048x512) hz2, View.readCov_unit_zero (S := S1024x2048) _ hz2]

theorem coverMid (hc0 : ¬condFirst i) (hc1 : ¬condLast i) (x0 : Vec F S1024x512 .bf16) (x1 : Vec F S2048x512 .bf16) (xs0 : Vec F S1024x2048 .f32) (y : S1024x2048.Idx) :
    ∃ pc ∈ (runMid c i arg3 harg3 arg4 harg4 arg5 harg5 arg6 harg6 arg7 harg7 arg8 harg8 hc0 hc1 x0 x1 xs0).1, y ∈ pc.1.set :=
  View.cover_of_tiledL (runMid c i arg3 harg3 arg4 harg4 arg5 harg5 arg6 harg6 arg7 harg7 arg8 harg8 hc0 hc1 x0 x1 xs0).1 S1024x2048.size (by sl_kernel_rfl) y

/-- 0 < k < 7 leaves the running sum plus the next partial product. -/
theorem piecesMid (hc0 : ¬condFirst i) (hc1 : ¬condLast i) (x0 : Vec F S1024x512 .bf16) (x1 : Vec F S2048x512 .bf16) (xs0 : Vec F S1024x2048 .f32) :
    View.canon (runMid c i arg3 harg3 arg4 harg4 arg5 harg5 arg6 harg6 arg7 harg7 arg8 harg8 hc0 hc1 x0 x1 xs0).1 = k1_pay2 xs0 x0 x1 := by
  unfold runMid
  dsimp only
  sl_unfold_words
  rw [View.canon_unit_zero (S := S1024x2048) hz2]
  simp only [View.readAt_eq_ld, harg3.read_unread, harg4.read_unread, harg8.read_unread, View.ld_unit_zero (S := S1024x512) hz2,
    View.ld_unit_zero (S := S2048x512) hz2, View.ld_unit_zero (S := S1024x2048) hz2]

theorem coverLastS (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) (y : S1024x2048.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S1024x2048.size (by sl_kernel_rfl) y

theorem coverLastO (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) (y : S1024x2048.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1024x2048.size (by sl_kernel_rfl) y

/-- k = 7 leaves in the scratch the running sum plus the last partial product, -/
theorem piecesLastS (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) :
    View.canon (runLast c i arg3 harg3 arg4 harg4 arg5 harg5 arg6 harg6 arg7 harg7 arg8 harg8 hc0 hc1 x0 x1 x2 x3 xs0).2.1 = k1_pay2 xs0 x0 x1 := by
  unfold runLast
  dsimp only
  sl_unfold_words
  rw [View.canon_unit_zero (S := S1024x2048) hz2]
  simp only [View.readAt_eq_ld, harg3.read_unread, harg4.read_unread, harg8.read_unread, View.ld_unit_zero (S := S1024x512) hz2,
    View.ld_unit_zero (S := S2048x512) hz2, View.ld_unit_zero (S := S1024x2048) hz2]

/-- and in the output block that sum times the outer product of the two scale blocks. -/
theorem piecesLastO (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) :
    View.canon (runLast c i arg3 harg3 arg4 harg4 arg5 harg5 arg6 harg6 arg7 harg7 arg8 harg8 hc0 hc1 x0 x1 x2 x3 xs0).1 = k1_pay3 x2 x3 (k1_pay2 xs0 x0 x1) := by
  unfold runLast
  dsimp only
  sl_unfold_words
  rw [View.canon_unit_zero (S := S1024x2048) hz2]
  simp only [View.readAt_eq_ld, harg3.read_unread, harg4.read_unread, harg5.read_unread, harg6.read_unread, harg8.read_unread,
    View.ld_unit_zero (S := S1024x512) hz2, View.ld_unit_zero (S := S2048x512) hz2, View.ld_unit_zero (S := S1024x2048) hz2,
    View.ld_unit_zero (S := S1024x1) hz2, View.ld_unit_zero (S := S1x2048) hz2, View.readCov_unit_zero (S := S1024x2048) _ hz2]

end Pieces

/-! ## The accumulator, point by point -/

/-- The activation block and the weight block point t multiplies. -/
abbrev xb (c : Dev nD) (t : Fin cfg1.N) : Vec F S1024x512 .bf16 := iblk V c 0 t
abbrev wb (c : Dev nD) (t : Fin cfg1.N) : Vec F S2048x512 .bf16 := iblk V c 1 t
/-- The row-scale block and the column-scale block of point t. -/
abbrev xsb (c : Dev nD) (t : Fin cfg1.N) : Vec F S1024x1 .f32 := iblk V c 2 t
abbrev wsb (c : Dev nD) (t : Fin cfg1.N) : Vec F S1x2048 .f32 := iblk V c 3 t

/-- What the scratch holds after the body at position n: cleared and refilled where the contraction starts, the
    point before's contents plus this point's partial product elsewhere. -/
def accAt (c : Dev nD) : (n : ℕ) → n < cfg1.N → Vec F S1024x2048 .f32
  | 0, hn => k1_pay2 (k1_pay1 (F := F)) (xb V c ⟨0, hn⟩) (wb V c ⟨0, hn⟩)
  | n + 1, hn =>
    if (n + 1) % 8 = 0 then k1_pay2 (k1_pay1 (F := F)) (xb V c ⟨n + 1, hn⟩) (wb V c ⟨n + 1, hn⟩)
    else k1_pay2 (accAt c n (Nat.lt_of_succ_lt hn)) (xb V c ⟨n + 1, hn⟩) (wb V c ⟨n + 1, hn⟩)

theorem accAt_first (c : Dev nD) (t : Fin cfg1.N) (h0 : t.val % 8 = 0) :
    accAt V c t.val t.isLt = k1_pay2 (k1_pay1 (F := F)) (xb V c t) (wb V c t) := by
  obtain ⟨n, hn⟩ := t
  cases n with
  | zero => rfl
  | succ n => exact if_pos h0

theorem accAt_next (c : Dev nD) (t : Fin cfg1.N) (h0 : ¬t.val % 8 = 0) :
    accAt V c t.val t.isLt = k1_pay2 (accAt V c (t.val - 1) (Nat.lt_of_le_of_lt (Nat.sub_le _ _) t.isLt)) (xb V c t) (wb V c t) := by
  obtain ⟨n, hn⟩ := t
  cases n with
  | zero => exact absurd (Nat.zero_mod _) h0
  | succ n => exact if_neg h0

/-- What the output block's buffer holds after the body at a point that stores it. -/
def outAt (c : Dev nD) (t : Fin cfg1.N) : Vec F S1024x2048 .f32 :=
  k1_pay3 (xsb V c t) (wsb V c t) (accAt V c t.val t.isLt)

/-! ## The invariant: the scratch at the accumulator, the other scoped buffers at anything -/

/-- The region's scoped buffers other than its own staging buffers and the scratch: the first region's staging buffers. -/
def restS (c : Dev nD) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg1_1) fullShare d)
    ∗ (∃ d, owns (c : Thread nD τ) (Memref.whole cc0_stg2_0) fullShare d) ∗ (∃ d, owns (c : Thread nD τ) (Memref.whole cc0_stg2_1) fullShare d))

theorem PhiA_eq (c : Dev nD) :
    (Pipeline.ΦA spec1 c : sProp 𝕄)
      = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ (∃ d, owns (c : Thread nD τ) scM fullShare d)) ∗ (∃ r, prngReg c r)) := by
  unfold Pipeline.ΦA; rw [scopedRest1_eq]; simp only [scM, owns_whole]; try rfl

/-- Before position n: at the region's entry nothing is said of the scratch; afterwards it holds what the point before left. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ owns (c : Thread nD τ) scM fullShare (accAt V c (n - 1) (by omega))) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d

end Cert.KernelIdeal.Matmul

end
-- ==== Proof.MatmulBody.lean ====
/-
  The matmul region's body obligation: at every grid point the body, handed the invariant, the four input blocks and
  the output window's buffer, runs to the invariant at the next point with the scratch at that point's accumulator,
  the input buffers as found, and the output buffer at the finished block where the contraction ends, untouched elsewhere.
-/
import proofs.«422675_j1176821039708_3_alg».proof.Proof.Gen.KernelIdeal.Launch
import proofs.«422675_j1176821039708_3_alg».proof.Proof.Gen.KernelIdeal.Skeleton
import proofs.«422675_j1176821039708_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422675_j1176821039708_3_alg».proof.Proof.MatmulRegion
set_option maxRecDepth 16384

noncomputable section
namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in0 (c : Dev nD) (t : Fin cfg1.N) : (dat V c).leavesExact 0 t = owns (c : Thread nD τ) (ms0 t) fullShare (iblk V c 0 t) := by
  unfold Dat.leavesExact; rw [live0 t, after_0]
theorem leaves_in1 (c : Dev nD) (t : Fin cfg1.N) : (dat V c).leavesExact 1 t = owns (c : Thread nD τ) (ms1 t) fullShare (iblk V c 1 t) := by
  unfold Dat.leavesExact; rw [live1 t, after_1]
theorem leaves_in2 (c : Dev nD) (t : Fin cfg1.N) : (dat V c).leavesExact 2 t = owns (c : Thread nD τ) (ms2 t) fullShare (iblk V c 2 t) := by
  unfold Dat.leavesExact; rw [live2 t, after_2]
theorem leaves_in3 (c : Dev nD) (t : Fin cfg1.N) : (dat V c).leavesExact 3 t = owns (c : Thread nD τ) (ms3 t) fullShare (iblk V c 3 t) := by
  unfold Dat.leavesExact; rw [live3 t, after_3]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3]
  have hN : t.val < 128 := lt_of_lt_of_eq t.isLt (show cfg1.N = 128 from N_1)
  by_cases h0 : t.val % 8 = 0
  · -- the contraction starts: the scratch, whatever it holds, is cleared
    have h1 : ¬t.val % 8 = 7 := by omega
    have hc0 : condFirst (grid1.coords t) := (hcondFirst t).mpr h0
    have hc1 : ¬condLast (grid1.coords t) := fun h => h1 ((hcondLast t).mp h)
    rw [Dat.leavesExact_idle (dat V c) 4 t (idle4 t hc1) (noFlush4 t hc1)]
    rw [accAt_first V c t h0]
    have hS : ∀ (P : sProp 𝕄), iprop((dat V c).Φ t.castSucc) ⊢ iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ (∃ d, owns (c : Thread nD τ) scM fullShare d)) ∗ (∃ r, prngReg c r)) := by
      intro _
      by_cases hz : t.val = 0
      · rw [Phi_castSucc V c t, PhiS_zero V c _ _ hz, PhiA_eq]
      · rw [Phi_castSucc V c t, PhiS_pos V c _ _ hz]
        iintro ⟨⟨A1, A2, A3, A4, A5, A6, HS0⟩, Hg⟩
        isplitr [Hg]
        · isplitl [A1]; · iexact A1
          isplitl [A2]; · iexact A2
          isplitl [A3]; · iexact A3
          isplitl [A4]; · iexact A4
          isplitl [A5]; · iexact A5
          isplitl [A6]; · iexact A6
          iexists _; iexact HS0
        iexact Hg
    iintro ⟨HΦ, Ho, ⟨%d0, H0⟩, ⟨%d1, H1⟩, ⟨%d2, H2⟩, ⟨%d3, H3⟩, ⟨%d4, H4⟩⟩
    ihave HΦ' := (hS iprop(emp)) $$ HΦ
    icases HΦ' with ⟨⟨A1, A2, A3, A4, A5, A6, HS0⟩, Hg⟩
    iapply ((runFirst c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t)).2 Set.univ _)
    isplitl [H0]; · iexact H0
    isplitl [H1]; · iexact H1
    isplitl [HS0]; · iexact HS0
    iintro ⟨H0, H1, ⟨%es0, HS0⟩⟩
    isplitl [A1 A2 A3 A4 A5 A6 HS0 Hg]
    · isplitr [Hg]
      · isplitl [A1]; · iexact A1
        isplitl [A2]; · iexact A2
        isplitl [A3]; · iexact A3
        isplitl [A4]; · iexact A4
        isplitl [A5]; · iexact A5
        isplitl [A6]; · iexact A6
        unfold owns; iexists _; isplitr
        swap; · iexact HS0
        ipureintro
        exact (View.read_writes_eq_canon _ _ _ (coverFirst c _ _ _ _ _ _ _ _ _ _ _ _ _ hc0 hc1 _ _)).trans (piecesFirst c _ _ _ _ _ _ _ _ _ _ _ _ _ hc0 hc1 _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬condFirst (grid1.coords t) := fun h => h0 ((hcondFirst t).mp h)
    rw [accAt_next V c t h0]
    rw [Phi_castSucc V c t, PhiS_pos V c _ _ hz]
    by_cases h1 : t.val % 8 = 7
    · -- the contraction ends: the finished block is stored
      have hc1 : condLast (grid1.coords t) := (hcondLast t).mpr h1
      rw [show (dat V c).leavesExact 4 t = owns (c : Thread nD τ) (ms4 t) fullShare ((dat V c).after 4 t) from by
        unfold Dat.leavesExact; rw [live4 t hc1], after_4]
      unfold outAt
      rw [accAt_next V c t h0]
      iintro ⟨⟨⟨A1, A2, A3, A4, A5, A6, HS0⟩, Hg⟩, Ho, ⟨%d0, H0⟩, ⟨%d1, H1⟩, ⟨%d2, H2⟩, ⟨%d3, H3⟩, ⟨%d4, H4⟩⟩
      iapply ((runLast c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [A1 A2 A3 A4 A5 A6 HS0 Hg]
      · isplitr [Hg]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS0
          ipureintro
          exact (View.read_writes_eq_canon _ _ _ (coverLastS c _ _ _ _ _ _ _ _ _ _ _ _ _ hc0 hc1 _ _ _ _ _)).trans (piecesLastS c _ _ _ _ _ _ _ _ _ _ _ _ _ hc0 hc1 _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (coverLastO c _ _ _ _ _ _ _ _ _ _ _ _ _ hc0 hc1 _ _ _ _ _)).trans (piecesLastO c _ _ _ _ _ _ _ _ _ _ _ _ _ hc0 hc1 _ _ _ _ _)
    · -- in between: one more partial product
      have hc1 : ¬condLast (grid1.coords t) := fun h => h1 ((hcondLast t).mp h)
      rw [Dat.leavesExact_idle (dat V c) 4 t (idle4 t hc1) (noFlush4 t hc1)]
      iintro ⟨⟨⟨A1, A2, A3, A4, A5, A6, HS0⟩, Hg⟩, Ho, ⟨%d0, H0⟩, ⟨%d1, H1⟩, ⟨%d2, H2⟩, ⟨%d3, H3⟩, ⟨%d4, H4⟩⟩
      iapply ((runMid c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) _).2 Set.univ _)
      isplitl [H0]; · iexact H0
      isplitl [H1]; · iexact H1
      isplitl [HS0]; · iexact HS0
      iintro ⟨H0, H1, ⟨%es0, HS0⟩⟩
      isplitl [A1 A2 A3 A4 A5 A6 HS0 Hg]
      · isplitr [Hg]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS0
          ipureintro
          exact (View.read_writes_eq_canon _ _ _ (coverMid c _ _ _ _ _ _ _ _ _ _ _ _ _ hc0 hc1 _ _ _)).trans (piecesMid c _ _ _ _ _ _ _ _ _ _ _ _ _ hc0 hc1 _ _ _)
        iexact Hg
      isplitl [Ho]; · iexact Ho
      isplitl [H0]; · iexact H0
      isplitl [H1]; · iexact H1
      isplitl [H2]; · iexact H2
      isplitl [H3]; · iexact H3
      iexists _; iexact H4

/-- The pipeline library's body obligation for the region, at every point. -/
theorem body_obligation (c : Dev nD) : BodyObligation (dat (F := F) V c) (defs₀ (F := F)) Variants.none () Set.univ := fun t => by
  rw [bigSep_W1, bigSep_W1]
  exact sound_body V c t

/-- The region is entered with nothing said of the scratch. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the scratch's contents are forgotten again. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨A1, A2, A3, A4, A5, A6, HS0⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    iexists _; iexact HS0
  iexact Hg

end Cert.KernelIdeal.Matmul

end
-- ==== Proof.Run.lean ====
/-
  The whole program as a run: five stretches of host operations (the nibble unpacking, the reshape of the column
  scales), then the quantisation region, then the matmul region. Between two items the core's unscoped buffers are
  held whole at named contents: the launch memory, then each stretch's operations applied, then, after a region, its
  arrays at what the pipeline's write-backs leave and every other buffer as the region found it. Every weakly fair
  execution terminates; the result array ends at what the matmul region's write-backs leave, and the three argument
  arrays end as launched.
-/
import proofs.«422675_j1176821039708_3_alg».proof.Proof.Gen.KernelIdeal.Launch
import proofs.«422675_j1176821039708_3_alg».proof.Proof.Gen.KernelIdeal.Skeleton
import proofs.«422675_j1176821039708_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422675_j1176821039708_3_alg».proof.Proof.Gen.KernelIdeal.Regions
import proofs.«422675_j1176821039708_3_alg».proof.Proof.QuantRegion
import proofs.«422675_j1176821039708_3_alg».proof.Proof.MatmulBody
set_option maxRecDepth 16384

noncomputable section
namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the two regions -/

/-- What the quantisation region finds, read at the TensorCore's references: the launch memory after the host stretches. -/
abbrev Vq : (c : Dev nD) → (b : Ref sig .tc) → Buf (Elt F) ((c : Thread nD τ).loc b) := fun c b => V5 m c b

/-- After the quantisation region: its arrays at what its write-backs leave, every other buffer as it found them. -/
def W6 (c : Dev nD) : Valuation τ sig (Elt F) :=
  Pipeline.withArrays spec0 c (V5 m c) fun w => (Quant.dat (Vq m) c).arrAt w cfg0.N
theorem W6_arr (c : Dev nD) (w : Fin cfg0.W) :
    W6 m c (Proc.devRef .tc (Pipeline.arrRef spec0 w)) = (Quant.dat (Vq m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb

/-- What the matmul region finds. -/
abbrev Vm : (c : Dev nD) → (b : Ref sig .tc) → Buf (Elt F) ((c : Thread nD τ).loc b) := fun c b => W6 m c b
theorem hF0 (c : Dev nD) (w : Fin cfg0.W) : (Quant.dat (Vq m) c).arrAt w cfg0.N = Vm m c (Pipeline.arrRef spec0 w) :=
  (W6_arr m c w).symm
theorem hrest0 (c : Dev nD) : ∀ b, b ∉ Finset.univ.image (Pipeline.arrRef spec0) → Vm m c b = Vq m c b :=
  fun b hb => W6_of_ne m c b fun w e => hb (Finset.mem_image.mpr ⟨w, Finset.mem_univ _, e⟩)

/-- After the matmul region: its arrays at what its write-backs leave, every other buffer as it found them. -/
def W7 (c : Dev nD) : Valuation τ sig (Elt F) :=
  Pipeline.withArrays spec1 c (W6 m c) fun w => (Matmul.dat (Vm m) c).arrAt w cfg1.N
theorem W7_arr (c : Dev nD) (w : Fin cfg1.W) :
    W7 m c (Proc.devRef .tc (Pipeline.arrRef spec1 w)) = (Matmul.dat (Vm m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vend : (c : Dev nD) → (b : Ref sig .tc) → Buf (Elt F) ((c : Thread nD τ).loc b) := fun c b => W7 m c b
theorem hF1 (c : Dev nD) (w : Fin cfg1.W) : (Matmul.dat (Vm m) c).arrAt w cfg1.N = Vend m c (Pipeline.arrRef spec1 w) :=
  (W7_arr m c w).symm
theorem hrest1 (c : Dev nD) : ∀ b, b ∉ Finset.univ.image (Pipeline.arrRef spec1) → Vend m c b = Vm m c b :=
  fun b hb => W7_of_ne m c b fun w e => hb (Finset.mem_image.mpr ⟨w, Finset.mem_univ _, e⟩)

/-! ## No item writes an argument array -/

theorem V5_arg (c : Dev nD) (r : Ref sig .tc) (h0 : r ∉ hostOps0_W) (h1 : r ∉ hostOps0_1_W) (h2 : r ∉ hostOps0_2_W) (h3 : r ∉ hostOps0_3_W) (h4 : r ∉ hostOps0_4_W) :
    V5 m c r = m ((c : Thread nD τ).loc r) :=
  (V5_of m c r h4).trans <| (V4_of m c r h3).trans <| (V3_of m c r h2).trans <| (V2_of m c r h1).trans <| (V1_of m c r h0).trans rfl

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = V5 m c (Proc.devRef .tc main_arg0) := (W6_arr m c 0).trans (((Quant.dat (Vq m) c).arrAt_in 0 rfl _).trans (Quant.A_eq (Vq m) c 0))
    _ = m ((c : Thread nD τ).loc main_arg0) := V5_arg m c main_arg0 (by decide) (by decide) (by decide) (by decide) (by decide)
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = V5 m c (Proc.devRef .tc main_arg1) := W6_of_ne m c main_arg1 (by decide)
    _ = m ((c : Thread nD τ).loc main_arg1) := V5_arg m c main_arg1 (by decide) (by decide) (by decide) (by decide) (by decide)
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = V5 m c (Proc.devRef .tc main_arg2) := W6_of_ne m c main_arg2 (by decide)
    _ = m ((c : Thread nD τ).loc main_arg2) := V5_arg m c main_arg2 (by decide) (by decide) (by decide) (by decide) (by decide)
/-- The result array ends at what the matmul region's write-backs leave. -/
theorem W7_main_v23 (c : Dev nD) : W7 m c (Proc.devRef .tc main_v23) = (Matmul.dat (Vm m) c).arrAt 4 cfg1.N :=
  W7_arr m c 4

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Quant.dat (Vq m) c
  | ⟨1, _⟩ => fun c => Matmul.dat (Vm m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev EE : Fin 3 → Dev nD → sProp 𝕄 := fun _ c => R c
/-- The last thread state: every unscoped buffer at the last contents, the generator register at some state. -/
abbrev Tₙ (c : Dev nD) : sProp 𝕄 := iprop(StableHlo.held (c : Thread nD τ) (Pipeline.ucRefs τ sig) (W7 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The quantisation region: entered with every unscoped buffer at the contents after the host stretches, left with its
    two result arrays at their write-backs. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Quant.body_obligation (Vq m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vq m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vq m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vq m c) (Vm m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered with the quantised activations and their scales where the first region left them, left
    with the result array at its write-backs. The scratch enters the invariant at anything and leaves it forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (Vm m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vm m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vm m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Matmul.hin (Vm m) c)
    unfold Pipeline.ΦA
    iintro ⟨Hp, -, Hr⟩
    isplitl [Hr]; · iexact Hr
    iexact Hp
  hout c := by
    rw [Pipeline.ownSems0_none]
    refine (Matmul.hout (Vm m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vm m c) (Vend m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The seven items in order: the five host stretches, then the two regions. -/
abbrev segs : List (Pipeline.Seg (pcfgs (F := F)) adm (pdats m) () defs₀ 𝒱₀ L lv) :=
  [ .host (seg0 m 𝒱₀ L lv (EE (F := F))), .host (seg1 m 𝒱₀ L lv (EE (F := F))), .host (seg2 m 𝒱₀ L lv (EE (F := F))),
    .host (seg3 m 𝒱₀ L lv (EE (F := F))), .host (seg4 m 𝒱₀ L lv (EE (F := F))), .region (reg0 m), .region (reg1 m) ]

set_option backward.isDefEq.respectTransparency.types false in
/-- Every weakly fair execution of the program from memory m with zero counters terminates, and in every final
    memory the result array holds what the matmul region's write-backs leave while the three arguments hold what
    they held at launch. -/
theorem run_main : θ_run defs (onTc (τ := τ) (main (F := F))) ⟨m, fun _ => 0, ρ⟩ (fun r => ∀ c : Dev nD,
      r.2.mem ((c.tc : Thread nD τ).loc main_v23) = (Matmul.dat (Vm m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨(h c _ (mem_uc main_v23 (by decide))).trans (W7_main_v23 m c),
       (h c _ (mem_uc main_arg0 (by decide))).trans (W7_main_arg0 m c),
       (h c _ (mem_uc main_arg1 (by decide))).trans (W7_main_arg1 m c),
       (h c _ (mem_uc main_arg2 (by decide))).trans (W7_main_arg2 m c)⟩)

end Cert.KernelIdeal.Run

end
-- ==== Proof.BitsQuantRegion.lean ====
/-
  The activation-quantisation region: one grid axis of 16 points, point t reading rows 512·t … 512·t+511 of x and
  writing the same rows of the quantised activations (window 1) and of the per-row scale (window 2).
  Per point the body loads the whole 512×4096 block, stores the block of quantised values and the block of scales,
  each through one rectangle that is the whole staging buffer; nothing is carried from point to point.
  This module states what each output's staging buffer holds after the body as a function of the input block,
  proves the body's triple, and packages the pipeline's proof data and its body obligation, at any float instance
  and at any contents V of the core's buffers at the region's entry.
-/
import proofs.«422675_j1176821039708_3_alg».proof.Proof.Gen.Kernel.Launch
import proofs.«422675_j1176821039708_3_alg».proof.Proof.Gen.Kernel.Skeleton
import proofs.«422675_j1176821039708_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Quant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point: it is fetched at every point. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole 512×4096 staging buffer as a rectangle, and the whole 512×1 one. -/
abbrev rX : Rect S512x4096 := Rect.unit (s := S512x4096) ![0, 0] S512x4096.size inb_S512x4096_S512x4096_0_0
abbrev rS : Rect S512x1 := Rect.unit (s := S512x1) ![0, 0] S512x1.size inb_S512x1_S512x1_0_0

/-- What the body leaves in the quantised-activations buffer: one store of the whole block. -/
def outQ (x0 : Vec F S512x4096 .f32) : Vec F S512x4096 .bf16 :=
  View.canon [⟨rX, k0_pay2 (View.ld x0 rX)⟩]

/-- What the body leaves in the scale buffer: one store of the whole column. -/
def outS (x0 : Vec F S512x4096 .f32) : Vec F S512x1 .f32 :=
  View.canon [⟨rS, k0_pay1 (View.ld x0 rX)⟩]

theorem coverQ (p0 : Vec F S512x4096 .bf16) (y : S512x4096.Idx) :
    ∃ pc ∈ ([⟨rX, p0⟩] : List (View.Piece (Elt F) S512x4096 .bf16)), y ∈ pc.1.set :=
  View.cover_of_tiled [⟨rX, p0⟩] S512x4096.size (by rfl) y

theorem coverS (p0 : Vec F S512x1 .f32) (y : S512x1.Idx) :
    ∃ pc ∈ ([⟨rS, p0⟩] : List (View.Piece (Elt F) S512x1 .f32)), y ∈ pc.1.set :=
  View.cover_of_tiled [⟨rS, p0⟩] S512x1.size (by rfl) y

set_option maxHeartbeats 1000000 in
/-- The body on whole staging memrefs: the input's contents are kept, each output ends at its one store. -/
theorem sound_kernel (c : Dev nD) (E : Set ℕ) (i : grid0.Coords) (arg1 : Memref sig .tc .vmem S512x4096 .f32) (harg1 : arg1.IsWhole)
    (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outQ x0) ∗ owns (c : Thread nD τ) arg3 fullShare (outS x0)) -∗ K ⟨⟩))
      ⊢ wp frame (wpE (defs₀ (F := F)) Variants.none c none) E (cc0__quant_kernel i arg1 harg1 arg2 harg2 arg3 harg3) K := by
  simp only [cc0__quant_kernel_eq_skeleton]; unfold cc0__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverQ _)
  iexists _; isplitr
  swap; · iexact H2
  ipureintro
  exact View.read_writes_eq_canon _ _ _ (coverS _)

/-- The region's proof data on core c: the arrays as found; after the body the input buffer at its block and each
    output buffer at its store of that block; the invariant says nothing of the scratch; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => outQ (iblk V c 0 t)
    | ⟨2, _⟩ => outS (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = outQ (iblk V c 0 t) := by dsimp only [dat]
theorem after_2 (c : Dev nD) (t : Fin cfg0.N) : (dat V c).after 2 t = outS (iblk V c 0 t) := by dsimp only [dat]

theorem before_0 (c : Dev nD) (t : Fin cfg0.N) (d) : (dat V c).before 0 t d = iblk V c 0 t :=
  before_in_of V (dat V c) (A_eq V c 0) (after_0 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the region, at every point. -/
theorem body_obligation (c : Dev nD) : BodyObligation (dat (F := F) V c) (defs₀ (F := F)) Variants.none () Set.univ := fun t => by
  rw [bigSep_W0, bigSep_W0]
  exact sound_body V c t

end Cert.Kernel.Quant

end
-- ==== Proof.BitsMatmulRuns.lean ====
/-
  The matmul region's body, run case by case. The grid is 8 × 2 × 8 and the innermost coordinate k walks the
  contraction: at k = 0 the body clears the accumulator scratch and adds the first partial product into it; at
  0 < k < 7 it adds the next partial product; at k = 7 it adds the last one and stores the accumulator times the
  outer product of the row scales and the column scales into the output block. Each case is the body's triple on
  whole memrefs, the pieces the stores leave found by the run.
-/
import proofs.«422675_j1176821039708_3_alg».proof.Proof.Gen.Kernel.Launch
import proofs.«422675_j1176821039708_3_alg».proof.Proof.Gen.Kernel.Skeleton
import proofs.«422675_j1176821039708_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: the contraction coordinate is 0. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)
/-- The second conditional: the contraction coordinate is 7, the last. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

set_option maxHeartbeats 1000000 in
/-- k = 0: the scratch, at anything, is cleared and then holds the first partial product. -/
noncomputable def runFirst (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : condFirst i) (hc1 : ¬condLast i)
    (x0 : Vec F S1024x512 .bf16) (x1 : Vec F S2048x512 .bf16) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d)
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- 0 < k < 7: the scratch, at the running sum, takes the next partial product. -/
noncomputable def runMid (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬condFirst i) (hc1 : ¬condLast i)
    (x0 : Vec F S1024x512 .bf16) (x1 : Vec F S2048x512 .bf16) (xs0 : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg8 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- k = 7: the scratch takes the last partial product, and the output block the finished sum times the scales. -/
noncomputable def runLast (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬condFirst i) (hc1 : condLast i)
    (x0 : Vec F S1024x512 .bf16) (x1 : Vec F S2048x512 .bf16) (x2 : Vec F S1024x1 .f32) (x3 : Vec F S1x2048 .f32) (xs0 : Vec F S1024x2048 .f32) :
    Σ' (L4 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS0

end Cert.Kernel.Matmul

end
-- ==== Proof.BitsMatmulRegion.lean ====
/-
  The matmul region as a pipeline: what the accumulator scratch holds after each grid point, what the output block
  holds at the points that store it, the invariant that carries the scratch from point to point, the proof data and
  the body obligation; at any float instance and at any contents V of the core's buffers at the region's entry.

  The grid is 8 × 2 × 8, point t = (i·2 + j)·8 + k. After point t the scratch holds
      acc t = (if k = 0 then 0 else acc (t-1)) + x-block(i,k) · w-block(j,k)ᵀ,
  written with the body's own payload terms, and at k = 7 the output block (i, j) is stored as
      acc t · (xs-block(i) ⊗ ws-block(j)).
  At the other points the output window is idle: its buffer is handed back as found and is not written back.
-/
import proofs.«422675_j1176821039708_3_alg».proof.Proof.Gen.Kernel.Launch
import proofs.«422675_j1176821039708_3_alg».proof.Proof.Gen.Kernel.Skeleton
import proofs.«422675_j1176821039708_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«422675_j1176821039708_3_alg».proof.Proof.BitsMatmulRuns
set_option maxRecDepth 16384

noncomputable section
namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows hold their blocks, fetched at the point or not -/

theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the output window is idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem idle4 : ∀ t : Fin cfg1.N, ¬condLast (grid1.coords t) → cfg1.idle 4 (grid1.coords t) = true := by decide +kernel
theorem noFlush4 : ∀ t : Fin cfg1.N, ¬condLast (grid1.coords t) → (cfg1.win 4).flush t = false := by decide +kernel
theorem live4 : ∀ t : Fin cfg1.N, condLast (grid1.coords t) → cfg1.idle 4 (grid1.coords t) = false := by decide +kernel

/-! ## The memrefs the body is called with -/

abbrev ms0 (t : Fin cfg1.N) : Memref sig .tc .vmem S1024x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2048 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x2048 .f32 := win1_4.stage (cfg1.slots t 4)
abbrev hs4 (t : Fin cfg1.N) : (ms4 t).IsWhole := hstage1_4 ((cfg1.slots t 4).cast nbuf1_4)
/-- The accumulator scratch. -/
abbrev scM : Memref sig .tc .vmem S1024x2048 .f32 := Memref.whole cc1_scratch0

/-! ## What each case's stores leave, as the body's own payload terms -/

theorem hz2 : (![0, 0] : Fin 2 → Nat) = fun _ => 0 := by
  funext a; match a with | ⟨0, _⟩ => rfl | ⟨1, _⟩ => rfl

section Pieces
variable (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole)

theorem coverFirst (hc0 : condFirst i) (hc1 : ¬condLast i) (x0 : Vec F S1024x512 .bf16) (x1 : Vec F S2048x512 .bf16) (y : S1024x2048.Idx) :
    ∃ pc ∈ (runFirst c i arg3 harg3 arg4 harg4 arg5 harg5 arg6 harg6 arg7 harg7 arg8 harg8 hc0 hc1 x0 x1).1, y ∈ pc.1.set :=
  View.cover_of_tiledL (runFirst c i arg3 harg3 arg4 harg4 arg5 harg5 arg6 harg6 arg7 harg7 arg8 harg8 hc0 hc1 x0 x1).1 S1024x2048.size (by sl_kernel_rfl) y

/-- k = 0 leaves the cleared accumulator plus the first partial product. -/
theorem piecesFirst (hc0 : condFirst i) (hc1 : ¬condLast i) (x0 : Vec F S1024x512 .bf16) (x1 : Vec F S2048x512 .bf16) :
    View.canon (runFirst c i arg3 harg3 arg4 harg4 arg5 harg5 arg6 harg6 arg7 harg7 arg8 harg8 hc0 hc1 x0 x1).1 = k1_pay2 (k1_pay1 (F := F)) x0 x1 := by
  unfold runFirst
  dsimp only
  sl_unfold_words
  rw [View.canon_cons_unit_zero (S := S1024x2048) hz2]
  simp only [View.readAt_eq_ld, harg3.read_unread, harg4.read_unread, View.ld_unit_zero (S := S1024x512) hz2,
    View.ld_unit_zero (S := S2048x512) hz2, View.readCov_unit_zero (S := S1024x2048) _ hz2]

theorem coverMid (hc0 : ¬condFirst i) (hc1 : ¬condLast i) (x0 : Vec F S1024x512 .bf16) (x1 : Vec F S2048x512 .bf16) (xs0 : Vec F S1024x2048 .f32) (y : S1024x2048.Idx) :
    ∃ pc ∈ (runMid c i arg3 harg3 arg4 harg4 arg5 harg5 arg6 harg6 arg7 harg7 arg8 harg8 hc0 hc1 x0 x1 xs0).1, y ∈ pc.1.set :=
  View.cover_of_tiledL (runMid c i arg3 harg3 arg4 harg4 arg5 harg5 arg6 harg6 arg7 harg7 arg8 harg8 hc0 hc1 x0 x1 xs0).1 S1024x2048.size (by sl_kernel_rfl) y

/-- 0 < k < 7 leaves the running sum plus the next partial product. -/
theorem piecesMid (hc0 : ¬condFirst i) (hc1 : ¬condLast i) (x0 : Vec F S1024x512 .bf16) (x1 : Vec F S2048x512 .bf16) (xs0 : Vec F S1024x2048 .f32) :
    View.canon (runMid c i arg3 harg3 arg4 harg4 arg5 harg5 arg6 harg6 arg7 harg7 arg8 harg8 hc0 hc1 x0 x1 xs0).1 = k1_pay2 xs0 x0 x1 := by
  unfold runMid
  dsimp only
  sl_unfold_words
  rw [View.canon_unit_zero (S := S1024x2048) hz2]
  simp only [View.readAt_eq_ld, harg3.read_unread, harg4.read_unread, harg8.read_unread, View.ld_unit_zero (S := S1024x512) hz2,
    View.ld_unit_zero (S := S2048x512) hz2, View.ld_unit_zero (S := S1024x2048) hz2]

theorem coverLastS (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) (y : S1024x2048.Idx) :
    ∃ pc ∈ (runLast c i arg3 harg3 arg4 harg4 arg5 harg5 arg6 harg6 arg7 harg7 arg8 harg8 hc0 hc1 x0 x1 x2 x3 xs0).2.1, y ∈ pc.1.set :=
  View.cover_of_tiledL (runLast c i arg3 harg3 arg4 harg4 arg5 harg5 arg6 harg6 arg7 harg7 arg8 harg8 hc0 hc1 x0 x1 x2 x3 xs0).2.1 S1024x2048.size (by sl_kernel_rfl) y

theorem coverLastO (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) (y : S1024x2048.Idx) :
    ∃ pc ∈ (runLast c i arg3 harg3 arg4 harg4 arg5 harg5 arg6 harg6 arg7 harg7 arg8 harg8 hc0 hc1 x0 x1 x2 x3 xs0).1, y ∈ pc.1.set :=
  View.cover_of_tiledL (runLast c i arg3 harg3 arg4 harg4 arg5 harg5 arg6 harg6 arg7 harg7 arg8 harg8 hc0 hc1 x0 x1 x2 x3 xs0).1 S1024x2048.size (by sl_kernel_rfl) y

/-- k = 7 leaves in the scratch the running sum plus the last partial product, -/
theorem piecesLastS (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) :
    View.canon (runLast c i arg3 harg3 arg4 harg4 arg5 harg5 arg6 harg6 arg7 harg7 arg8 harg8 hc0 hc1 x0 x1 x2 x3 xs0).2.1 = k1_pay2 xs0 x0 x1 := by
  unfold runLast
  dsimp only
  sl_unfold_words
  rw [View.canon_unit_zero (S := S1024x2048) hz2]
  simp only [View.readAt_eq_ld, harg3.read_unread, harg4.read_unread, harg8.read_unread, View.ld_unit_zero (S := S1024x512) hz2,
    View.ld_unit_zero (S := S2048x512) hz2, View.ld_unit_zero (S := S1024x2048) hz2]

/-- and in the output block that sum times the outer product of the two scale blocks. -/
theorem piecesLastO (hc0 : ¬condFirst i) (hc1 : condLast i) (x0 : Vec F S1024x512 .bf16) (x1 : Vec F S2048x512 .bf16) (x2 : Vec F S1024x1 .f32) (x3 : Vec F S1x2048 .f32) (xs0 : Vec F S1024x2048 .f32) :
    View.canon (runLast c i arg3 harg3 arg4 harg4 arg5 harg5 arg6 harg6 arg7 harg7 arg8 harg8 hc0 hc1 x0 x1 x2 x3 xs0).1 = k1_pay3 x2 x3 (k1_pay2 xs0 x0 x1) := by
  unfold runLast
  dsimp only
  sl_unfold_words
  rw [View.canon_unit_zero (S := S1024x2048) hz2]
  simp only [View.readAt_eq_ld, harg3.read_unread, harg4.read_unread, harg5.read_unread, harg6.read_unread, harg8.read_unread,
    View.ld_unit_zero (S := S1024x512) hz2, View.ld_unit_zero (S := S2048x512) hz2, View.ld_unit_zero (S := S1024x2048) hz2,
    View.ld_unit_zero (S := S1024x1) hz2, View.ld_unit_zero (S := S1x2048) hz2, View.readCov_unit_zero (S := S1024x2048) _ hz2]

end Pieces

/-! ## The accumulator, point by point -/

/-- The activation block and the weight block point t multiplies. -/
abbrev xb (c : Dev nD) (t : Fin cfg1.N) : Vec F S1024x512 .bf16 := iblk V c 0 t
abbrev wb (c : Dev nD) (t : Fin cfg1.N) : Vec F S2048x512 .bf16 := iblk V c 1 t
/-- The row-scale block and the column-scale block of point t. -/
abbrev xsb (c : Dev nD) (t : Fin cfg1.N) : Vec F S1024x1 .f32 := iblk V c 2 t
abbrev wsb (c : Dev nD) (t : Fin cfg1.N) : Vec F S1x2048 .f32 := iblk V c 3 t

/-- What the scratch holds after the body at position n: cleared and refilled where the contraction starts, the
    point before's contents plus this point's partial product elsewhere. -/
def accAt (c : Dev nD) : (n : ℕ) → n < cfg1.N → Vec F S1024x2048 .f32
  | 0, hn => k1_pay2 (k1_pay1 (F := F)) (xb V c ⟨0, hn⟩) (wb V c ⟨0, hn⟩)
  | n + 1, hn =>
    if (n + 1) % 8 = 0 then k1_pay2 (k1_pay1 (F := F)) (xb V c ⟨n + 1, hn⟩) (wb V c ⟨n + 1, hn⟩)
    else k1_pay2 (accAt c n (Nat.lt_of_succ_lt hn)) (xb V c ⟨n + 1, hn⟩) (wb V c ⟨n + 1, hn⟩)

theorem accAt_first (c : Dev nD) (t : Fin cfg1.N) (h0 : t.val % 8 = 0) :
    accAt V c t.val t.isLt = k1_pay2 (k1_pay1 (F := F)) (xb V c t) (wb V c t) := by
  obtain ⟨n, hn⟩ := t
  cases n with
  | zero => rfl
  | succ n => exact if_pos h0

theorem accAt_next (c : Dev nD) (t : Fin cfg1.N) (h0 : ¬t.val % 8 = 0) :
    accAt V c t.val t.isLt = k1_pay2 (accAt V c (t.val - 1) (Nat.lt_of_le_of_lt (Nat.sub_le _ _) t.isLt)) (xb V c t) (wb V c t) := by
  obtain ⟨n, hn⟩ := t
  cases n with
  | zero => exact absurd (Nat.zero_mod _) h0
  | succ n => exact if_neg h0

/-- What the output block's buffer holds after the body at a point that stores it. -/
def outAt (c : Dev nD) (t : Fin cfg1.N) : Vec F S1024x2048 .f32 :=
  k1_pay3 (xsb V c t) (wsb V c t) (accAt V c t.val t.isLt)

/-! ## The invariant: the scratch at the accumulator, the other scoped buffers at anything -/

/-- The region's scoped buffers other than its own staging buffers and the scratch: the first region's staging buffers. -/
def restS (c : Dev nD) : sProp 𝕄 :=
  iprop((∃ d, owns (c : Thread nD τ) (Memref.whole cc0_stg0_0) fullShare d) ∗ (∃ d, owns (c : Thread nD τ) (Memref.whole cc0_stg0_1) fullShare d)
    ∗ (∃ d, owns (c : Thread nD τ) (Memref.whole cc0_stg1_0) fullShare d) ∗ (∃ d, owns (c : Thread nD τ) (Memref.whole cc0_stg1_1) fullShare d)
    ∗ (∃ d, owns (c : Thread nD τ) (Memref.whole cc0_stg2_0) fullShare d) ∗ (∃ d, owns (c : Thread nD τ) (Memref.whole cc0_stg2_1) fullShare d))

theorem PhiA_eq (c : Dev nD) :
    (Pipeline.ΦA spec1 c : sProp 𝕄)
      = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ (∃ d, owns (c : Thread nD τ) scM fullShare d)) ∗ (∃ r, prngReg c r)) := by
  unfold Pipeline.ΦA; rw [scopedRest1_eq]; simp only [scM, owns_whole]; try rfl

/-- Before position n: at the region's entry nothing is said of the scratch; afterwards it holds what the point before left. -/
def PhiS (c : Dev nD) : (n : ℕ) → n ≤ cfg1.N → sProp 𝕄
  | 0, _ => Pipeline.ΦA spec1 c
  | n + 1, hn => iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ owns (c : Thread nD τ) scM fullShare (accAt V c (n - 1) (by omega))) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outAt V c t := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d
theorem before_2 (c : Dev nD) (t : Fin cfg1.N) (d) : (dat V c).before 2 t d = iblk V c 2 t :=
  before_in2_of V (dat V c) (A_eq V c 2) (after_2 V c) t d
theorem before_3 (c : Dev nD) (t : Fin cfg1.N) (d) : (dat V c).before 3 t d = iblk V c 3 t :=
  before_in3_of V (dat V c) (A_eq V c 3) (after_3 V c) t d

end Cert.Kernel.Matmul

end
-- ==== Proof.BitsMatmulBody.lean ====
/-
  The matmul region's body obligation: at every grid point the body, handed the invariant, the four input blocks and
  the output window's buffer, runs to the invariant at the next point with the scratch at that point's accumulator,
  the input buffers as found, and the output buffer at the finished block where the contraction ends, untouched elsewhere.
-/
import proofs.«422675_j1176821039708_3_alg».proof.Proof.Gen.Kernel.Launch
import proofs.«422675_j1176821039708_3_alg».proof.Proof.Gen.Kernel.Skeleton
import proofs.«422675_j1176821039708_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422675_j1176821039708_3_alg».proof.Proof.BitsMatmulRegion
set_option maxRecDepth 16384

noncomputable section
namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in0 (c : Dev nD) (t : Fin cfg1.N) : (dat V c).leavesExact 0 t = owns (c : Thread nD τ) (ms0 t) fullShare (iblk V c 0 t) := by
  unfold Dat.leavesExact; rw [live0 t, after_0]
theorem leaves_in1 (c : Dev nD) (t : Fin cfg1.N) : (dat V c).leavesExact 1 t = owns (c : Thread nD τ) (ms1 t) fullShare (iblk V c 1 t) := by
  unfold Dat.leavesExact; rw [live1 t, after_1]
theorem leaves_in2 (c : Dev nD) (t : Fin cfg1.N) : (dat V c).leavesExact 2 t = owns (c : Thread nD τ) (ms2 t) fullShare (iblk V c 2 t) := by
  unfold Dat.leavesExact; rw [live2 t, after_2]
theorem leaves_in3 (c : Dev nD) (t : Fin cfg1.N) : (dat V c).leavesExact 3 t = owns (c : Thread nD τ) (ms3 t) fullShare (iblk V c 3 t) := by
  unfold Dat.leavesExact; rw [live3 t, after_3]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3]
  have hN : t.val < 128 := lt_of_lt_of_eq t.isLt (show cfg1.N = 128 from N_1)
  by_cases h0 : t.val % 8 = 0
  · -- the contraction starts: the scratch, whatever it holds, is cleared
    have h1 : ¬t.val % 8 = 7 := by omega
    have hc0 : condFirst (grid1.coords t) := (hcondFirst t).mpr h0
    have hc1 : ¬condLast (grid1.coords t) := fun h => h1 ((hcondLast t).mp h)
    rw [Dat.leavesExact_idle (dat V c) 4 t (idle4 t hc1) (noFlush4 t hc1)]
    rw [accAt_first V c t h0]
    have hS : ∀ (P : sProp 𝕄), iprop((dat V c).Φ t.castSucc) ⊢ iprop(iprop((∃ d, owns (c : Thread nD τ) (Memref.whole cc0_stg0_0) fullShare d) ∗ (∃ d, owns (c : Thread nD τ) (Memref.whole cc0_stg0_1) fullShare d)
          ∗ (∃ d, owns (c : Thread nD τ) (Memref.whole cc0_stg1_0) fullShare d) ∗ (∃ d, owns (c : Thread nD τ) (Memref.whole cc0_stg1_1) fullShare d)
          ∗ (∃ d, owns (c : Thread nD τ) (Memref.whole cc0_stg2_0) fullShare d) ∗ (∃ d, owns (c : Thread nD τ) (Memref.whole cc0_stg2_1) fullShare d)
          ∗ (∃ d, owns (c : Thread nD τ) scM fullShare d)) ∗ (∃ r, prngReg c r)) := by
      intro _
      by_cases hz : t.val = 0
      · rw [Phi_castSucc V c t, PhiS_zero V c _ _ hz, PhiA_eq]
      · rw [Phi_castSucc V c t, PhiS_pos V c _ _ hz]
        iintro ⟨⟨A1, A2, A3, A4, A5, A6, HS0⟩, Hg⟩
        isplitr [Hg]
        · isplitl [A1]; · iexact A1
          isplitl [A2]; · iexact A2
          isplitl [A3]; · iexact A3
          isplitl [A4]; · iexact A4
          isplitl [A5]; · iexact A5
          isplitl [A6]; · iexact A6
          iexists _; iexact HS0
        iexact Hg
    iintro ⟨HΦ, Ho, ⟨%d0, H0⟩, ⟨%d1, H1⟩, ⟨%d2, H2⟩, ⟨%d3, H3⟩, ⟨%d4, H4⟩⟩
    ihave HΦ' := (hS iprop(emp)) $$ HΦ
    icases HΦ' with ⟨⟨A1, A2, A3, A4, A5, A6, HS0⟩, Hg⟩
    iapply ((runFirst c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t)).2 Set.univ _)
    isplitl [H0]; · iexact H0
    isplitl [H1]; · iexact H1
    isplitl [HS0]; · iexact HS0
    iintro ⟨H0, H1, ⟨%es0, HS0⟩⟩
    isplitl [A1 A2 A3 A4 A5 A6 HS0 Hg]
    · isplitr [Hg]
      · isplitl [A1]; · iexact A1
        isplitl [A2]; · iexact A2
        isplitl [A3]; · iexact A3
        isplitl [A4]; · iexact A4
        isplitl [A5]; · iexact A5
        isplitl [A6]; · iexact A6
        unfold owns; iexists _; isplitr
        swap; · iexact HS0
        ipureintro
        exact (View.read_writes_eq_canon _ _ _ (coverFirst c _ _ _ _ _ _ _ _ _ _ _ _ _ hc0 hc1 _ _)).trans (piecesFirst c _ _ _ _ _ _ _ _ _ _ _ _ _ hc0 hc1 _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬condFirst (grid1.coords t) := fun h => h0 ((hcondFirst t).mp h)
    rw [accAt_next V c t h0]
    rw [Phi_castSucc V c t, PhiS_pos V c _ _ hz]
    by_cases h1 : t.val % 8 = 7
    · -- the contraction ends: the finished block is stored
      have hc1 : condLast (grid1.coords t) := (hcondLast t).mpr h1
      rw [show (dat V c).leavesExact 4 t = owns (c : Thread nD τ) (ms4 t) fullShare ((dat V c).after 4 t) from by
        unfold Dat.leavesExact; rw [live4 t hc1], after_4]
      unfold outAt
      rw [accAt_next V c t h0]
      iintro ⟨⟨⟨A1, A2, A3, A4, A5, A6, HS0⟩, Hg⟩, Ho, ⟨%d0, H0⟩, ⟨%d1, H1⟩, ⟨%d2, H2⟩, ⟨%d3, H3⟩, ⟨%d4, H4⟩⟩
      iapply ((runLast c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [A1 A2 A3 A4 A5 A6 HS0 Hg]
      · isplitr [Hg]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS0
          ipureintro
          exact (View.read_writes_eq_canon _ _ _ (coverLastS c _ _ _ _ _ _ _ _ _ _ _ _ _ hc0 hc1 _ _ _ _ _)).trans (piecesLastS c _ _ _ _ _ _ _ _ _ _ _ _ _ hc0 hc1 _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (coverLastO c _ _ _ _ _ _ _ _ _ _ _ _ _ hc0 hc1 _ _ _ _ _)).trans (piecesLastO c _ _ _ _ _ _ _ _ _ _ _ _ _ hc0 hc1 _ _ _ _ _)
    · -- in between: one more partial product
      have hc1 : ¬condLast (grid1.coords t) := fun h => h1 ((hcondLast t).mp h)
      rw [Dat.leavesExact_idle (dat V c) 4 t (idle4 t hc1) (noFlush4 t hc1)]
      iintro ⟨⟨⟨A1, A2, A3, A4, A5, A6, HS0⟩, Hg⟩, Ho, ⟨%d0, H0⟩, ⟨%d1, H1⟩, ⟨%d2, H2⟩, ⟨%d3, H3⟩, ⟨%d4, H4⟩⟩
      iapply ((runMid c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) _).2 Set.univ _)
      isplitl [H0]; · iexact H0
      isplitl [H1]; · iexact H1
      isplitl [HS0]; · iexact HS0
      iintro ⟨H0, H1, ⟨%es0, HS0⟩⟩
      isplitl [A1 A2 A3 A4 A5 A6 HS0 Hg]
      · isplitr [Hg]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS0
          ipureintro
          exact (View.read_writes_eq_canon _ _ _ (coverMid c _ _ _ _ _ _ _ _ _ _ _ _ _ hc0 hc1 _ _ _)).trans (piecesMid c _ _ _ _ _ _ _ _ _ _ _ _ _ hc0 hc1 _ _ _)
        iexact Hg
      isplitl [Ho]; · iexact Ho
      isplitl [H0]; · iexact H0
      isplitl [H1]; · iexact H1
      isplitl [H2]; · iexact H2
      isplitl [H3]; · iexact H3
      iexists _; iexact H4

/-- The pipeline library's body obligation for the region, at every point. -/
theorem body_obligation (c : Dev nD) : BodyObligation (dat (F := F) V c) (defs₀ (F := F)) Variants.none () Set.univ := fun t => by
  rw [bigSep_W1, bigSep_W1]
  exact sound_body V c t

/-- The region is entered with nothing said of the scratch. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the scratch's contents are forgotten again. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨A1, A2, A3, A4, A5, A6, HS0⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    iexists _; iexact HS0
  iexact Hg

end Cert.Kernel.Matmul

end
-- ==== Proof.BitsRun.lean ====
/-
  The whole program as a run: five stretches of host operations (the nibble unpacking, the reshape of the column
  scales), then the quantisation region, then the matmul region. Between two items the core's unscoped buffers are
  held whole at named contents: the launch memory, then each stretch's operations applied, then, after a region, its
  arrays at what the pipeline's write-backs leave and every other buffer as the region found it. Every weakly fair
  execution terminates; the result array ends at what the matmul region's write-backs leave, and the three argument
  arrays end as launched.
-/
import proofs.«422675_j1176821039708_3_alg».proof.Proof.Gen.Kernel.Launch
import proofs.«422675_j1176821039708_3_alg».proof.Proof.Gen.Kernel.Skeleton
import proofs.«422675_j1176821039708_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422675_j1176821039708_3_alg».proof.Proof.Gen.Kernel.Regions
import proofs.«422675_j1176821039708_3_alg».proof.Proof.BitsQuantRegion
import proofs.«422675_j1176821039708_3_alg».proof.Proof.BitsMatmulBody
set_option maxRecDepth 16384

noncomputable section
namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the two regions -/

/-- What the quantisation region finds, read at the TensorCore's references: the launch memory after the host stretches. -/
abbrev Vq : (c : Dev nD) → (b : Ref sig .tc) → Buf (Elt F) ((c : Thread nD τ).loc b) := fun c b => V5 m c b

/-- After the quantisation region: its arrays at what its write-backs leave, every other buffer as it found them. -/
def W6 (c : Dev nD) : Valuation τ sig (Elt F) :=
  Pipeline.withArrays spec0 c (V5 m c) fun w => (Quant.dat (Vq m) c).arrAt w cfg0.N
theorem W6_arr (c : Dev nD) (w : Fin cfg0.W) :
    W6 m c (Proc.devRef .tc (Pipeline.arrRef spec0 w)) = (Quant.dat (Vq m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb

/-- What the matmul region finds. -/
abbrev Vm : (c : Dev nD) → (b : Ref sig .tc) → Buf (Elt F) ((c : Thread nD τ).loc b) := fun c b => W6 m c b
theorem hF0 (c : Dev nD) (w : Fin cfg0.W) : (Quant.dat (Vq m) c).arrAt w cfg0.N = Vm m c (Pipeline.arrRef spec0 w) :=
  (W6_arr m c w).symm
theorem hrest0 (c : Dev nD) : ∀ b, b ∉ Finset.univ.image (Pipeline.arrRef spec0) → Vm m c b = Vq m c b :=
  fun b hb => W6_of_ne m c b fun w e => hb (Finset.mem_image.mpr ⟨w, Finset.mem_univ _, e⟩)

/-- After the matmul region: its arrays at what its write-backs leave, every other buffer as it found them. -/
def W7 (c : Dev nD) : Valuation τ sig (Elt F) :=
  Pipeline.withArrays spec1 c (W6 m c) fun w => (Matmul.dat (Vm m) c).arrAt w cfg1.N
theorem W7_arr (c : Dev nD) (w : Fin cfg1.W) :
    W7 m c (Proc.devRef .tc (Pipeline.arrRef spec1 w)) = (Matmul.dat (Vm m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vend : (c : Dev nD) → (b : Ref sig .tc) → Buf (Elt F) ((c : Thread nD τ).loc b) := fun c b => W7 m c b
theorem hF1 (c : Dev nD) (w : Fin cfg1.W) : (Matmul.dat (Vm m) c).arrAt w cfg1.N = Vend m c (Pipeline.arrRef spec1 w) :=
  (W7_arr m c w).symm
theorem hrest1 (c : Dev nD) : ∀ b, b ∉ Finset.univ.image (Pipeline.arrRef spec1) → Vend m c b = Vm m c b :=
  fun b hb => W7_of_ne m c b fun w e => hb (Finset.mem_image.mpr ⟨w, Finset.mem_univ _, e⟩)

/-! ## No item writes an argument array -/

theorem V5_arg (c : Dev nD) (r : Ref sig .tc) (h0 : r ∉ hostOps0_W) (h1 : r ∉ hostOps0_1_W) (h2 : r ∉ hostOps0_2_W) (h3 : r ∉ hostOps0_3_W) (h4 : r ∉ hostOps0_4_W) :
    V5 m c r = m ((c : Thread nD τ).loc r) :=
  (V5_of m c r h4).trans <| (V4_of m c r h3).trans <| (V3_of m c r h2).trans <| (V2_of m c r h1).trans <| (V1_of m c r h0).trans rfl

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = V5 m c (Proc.devRef .tc main_arg0) := (W6_arr m c 0).trans (((Quant.dat (Vq m) c).arrAt_in 0 rfl _).trans (Quant.A_eq (Vq m) c 0))
    _ = m ((c : Thread nD τ).loc main_arg0) := V5_arg m c main_arg0 (by decide) (by decide) (by decide) (by decide) (by decide)
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = V5 m c (Proc.devRef .tc main_arg1) := W6_of_ne m c main_arg1 (by decide)
    _ = m ((c : Thread nD τ).loc main_arg1) := V5_arg m c main_arg1 (by decide) (by decide) (by decide) (by decide) (by decide)
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = V5 m c (Proc.devRef .tc main_arg2) := W6_of_ne m c main_arg2 (by decide)
    _ = m ((c : Thread nD τ).loc main_arg2) := V5_arg m c main_arg2 (by decide) (by decide) (by decide) (by decide) (by decide)
/-- The result array ends at what the matmul region's write-backs leave. -/
theorem W7_main_v23 (c : Dev nD) : W7 m c (Proc.devRef .tc main_v23) = (Matmul.dat (Vm m) c).arrAt 4 cfg1.N :=
  W7_arr m c 4

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Quant.dat (Vq m) c
  | ⟨1, _⟩ => fun c => Matmul.dat (Vm m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev EE : Fin 3 → Dev nD → sProp 𝕄 := fun _ c => R c
/-- The last thread state: every unscoped buffer at the last contents, the generator register at some state. -/
abbrev Tₙ (c : Dev nD) : sProp 𝕄 := iprop(StableHlo.held (c : Thread nD τ) (Pipeline.ucRefs τ sig) (W7 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The quantisation region: entered with every unscoped buffer at the contents after the host stretches, left with its
    two result arrays at their write-backs. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Quant.body_obligation (Vq m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vq m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vq m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vq m c) (Vm m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered with the quantised activations and their scales where the first region left them, left
    with the result array at its write-backs. The scratch enters the invariant at anything and leaves it forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (Vm m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vm m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vm m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Matmul.hin (Vm m) c)
    unfold Pipeline.ΦA
    iintro ⟨Hp, -, Hr⟩
    isplitl [Hr]; · iexact Hr
    iexact Hp
  hout c := by
    rw [Pipeline.ownSems0_none]
    refine (Matmul.hout (Vm m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vm m c) (Vend m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The seven items in order: the five host stretches, then the two regions. -/
abbrev segs : List (Pipeline.Seg (pcfgs (F := F)) adm (pdats m) () defs₀ 𝒱₀ L lv) :=
  [ .host (seg0 m 𝒱₀ L lv (EE (F := F))), .host (seg1 m 𝒱₀ L lv (EE (F := F))), .host (seg2 m 𝒱₀ L lv (EE (F := F))),
    .host (seg3 m 𝒱₀ L lv (EE (F := F))), .host (seg4 m 𝒱₀ L lv (EE (F := F))), .region (reg0 m), .region (reg1 m) ]

set_option backward.isDefEq.respectTransparency.types false in
/-- Every weakly fair execution of the program from memory m with zero counters terminates, and in every final
    memory the result array holds what the matmul region's write-backs leave while the three arguments hold what
    they held at launch. -/
theorem run_main : θ_run defs (onTc (τ := τ) (main (F := F))) ⟨m, fun _ => 0, ρ⟩ (fun r => ∀ c : Dev nD,
      r.2.mem ((c.tc : Thread nD τ).loc main_v23) = (Matmul.dat (Vm m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨(h c _ (mem_uc main_v23 (by decide))).trans (W7_main_v23 m c),
       (h c _ (mem_uc main_arg0 (by decide))).trans (W7_main_arg0 m c),
       (h c _ (mem_uc main_arg1 (by decide))).trans (W7_main_arg1 m c),
       (h c _ (mem_uc main_arg2 (by decide))).trans (W7_main_arg2 m c)⟩)

end Cert.Kernel.Run

end
-- ==== Proof.Spec.lean ====
/-
  The function both programs compute, over the extended reals, index by index.

  For an activation matrix x (8192 × 4096), an integer weight matrix W (4096 × 4096, the unpacked nibbles) and a
  column scale ws (4096):
    rowMax x r   = the maximum over k of |x r k|, from -∞;
    scale x r    = max (rowMax x r / 7) ε, with ε the binary32 value nearest 1e-5;
    quant x r k  = min 7 (max (-8) (round-half-even (x r k / scale x r)));
    out x W ws (r, o) = (∑ k, quant x r k · W o k) · (scale x r · ws o).
  The sum over the 4096 contraction coordinates is also the sum over 8 blocks of 512 (sum_blocks): the kernel
  accumulates block by block, the reference contracts at once.
-/
import proofs.«422675_j1176821039708_3_alg».proof.KernelIdeal
import Idealize.ShloMosaic.PureOps.Ideal
import Idealize.ShloMosaic.Lib.ValueIdx

noncomputable section

open scoped BigOperators

namespace Cert.Spec

open Cert.KernelIdeal Idealize.ShloMosaic Idealize.ShloMosaic.ValueIdx

/-- The literals the two programs share, as extended reals: 7, -8, ε and -∞. -/
abbrev seven : EReal := Ideal.ofBits .f32 0x40E00000#32
abbrev negEight : EReal := Ideal.ofBits .f32 0xC1000000#32
abbrev eps : EReal := Ideal.ofBits .f32 0x3727C5AC#32
abbrev negInf : EReal := Ideal.ofBits .f32 0xFF800000#32

/-- A row's largest absolute value, folded from -∞. -/
def rowMax (x : FVec Ideal S8192x4096 .f32) (r : Fin 8192) : EReal :=
  (Finset.univ : Finset (Fin 4096)).fold max negInf (fun k => max (x (ix2 r k)) (-(x (ix2 r k))))

/-- The row's quantisation step. -/
def scale (x : FVec Ideal S8192x4096 .f32) (r : Fin 8192) : EReal :=
  max (Ideal.div (rowMax x r) seven) eps

/-- The row's entries in steps, rounded to even and clipped to [-8, 7]. -/
def quant (x : FVec Ideal S8192x4096 .f32) (r : Fin 8192) (k : Fin 4096) : EReal :=
  min seven (max negEight (Ideal.liftRound Ideal.roundHalfEven (Ideal.div (x (ix2 r k)) (scale x r))))

/-- An integer weight as an extended real. -/
def wreal (W : S4096x4096.Idx → BitVec 32) (o : Fin 4096) (k : Fin 4096) : EReal :=
  (((W (ix2 o k)).toInt : ℝ) : EReal)

/-- One entry of the result. -/
def outAt (x : FVec Ideal S8192x4096 .f32) (W : S4096x4096.Idx → BitVec 32) (ws : FVec Ideal S4096 .f32)
    (r : Fin 8192) (o : Fin 4096) : EReal :=
  (∑ k : Fin 4096, quant x r k * wreal W o k) * (scale x r * ws (ix1 o))

/-- The whole result array. -/
def out (x : FVec Ideal S8192x4096 .f32) (W : S4096x4096.Idx → BitVec 32) (ws : FVec Ideal S4096 .f32) :
    FVec Ideal S8192x4096 .f32 :=
  fun i => outAt x W ws (i 0) (i 1)

/-- Coordinate b·512 + j of the contraction axis, for block b < 8 and offset j < 512. -/
def kAt (b : Fin 8) (j : Fin 512) : Fin 4096 := ⟨b.val * 512 + j.val, by have := b.isLt; have := j.isLt; omega⟩

/-- A sum over the 4096 contraction coordinates is the sum over the 8 blocks of the sums over each block's 512. -/
theorem sum_blocks (f : Fin 4096 → EReal) : ∑ k : Fin 4096, f k = ∑ b : Fin 8, ∑ j : Fin 512, f (kAt b j) := by
  -- the pairs (b, j) are the coordinates b·512 + j, one to one; then a sum over pairs is the iterated sum
  rw [← Fintype.sum_prod_type (f := fun p : Fin 8 × Fin 512 => f (kAt p.1 p.2))]
  refine (Fintype.sum_equiv (finProdFinEquiv (m := 8) (n := 512)) (fun p => f (kAt p.1 p.2)) f ?_).symm
  rintro ⟨b, j⟩
  refine congrArg f (Fin.ext ?_)
  show b.val * 512 + j.val = j.val + 512 * b.val
  omega

end Cert.Spec

end
-- ==== Proof.RefValue.lean ====
/-
  The reference's result is the specification, index by index, over the extended reals.

  The reference takes a row's largest absolute value (a maximum folded from -∞ along the row), divides by 7 and
  bounds below by ε to get the row's step, divides the row by its step, rounds to even and clips to [-8, 7];
  it unpacks the two nibbles of each packed word into a 4096 × 4096 integer matrix (Wref below: the low nibble at
  the even column, the high nibble at the odd one, each read as a signed four-bit number), converts it to the reals,
  contracts the quantised row with the matrix's row, and multiplies by the product of the row's step and the
  column's scale. Read at the index (r, o) every stage is the stage before it at an index computed from (r, o);
  the row maximum is a fold over the row's 4096 coordinates, the contraction a sum over them. The unpacked
  matrix enters only through its entries, so its integer chain is never opened.
-/
import proofs.«422675_j1176821039708_3_alg».proof.Proof.Gen.ReferenceIdeal.Run
import proofs.«422675_j1176821039708_3_alg».proof.Proof.Gen.ReferenceIdeal.Read
import proofs.«422675_j1176821039708_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The integer weight matrix the reference unpacks, as a function of the packed words: entry (o, 2c) is the low
    nibble of word (o, c) and entry (o, 2c + 1) its high nibble, a nibble above 7 lowered by 16. -/
def Wref (wp : IVec S4096x2048 32) : S4096x4096.Idx → BitVec 32 :=
  shapeCast _ (concatenate S4096x2048x2 2 [⟨S4096x2048x1, (broadcastInDim S4096x2048x1 ![0, 1] bcast_S4096x2048_S4096x2048x1_0_1 (select (cmpi .sgt (andi wp (broadcastInDim S4096x2048 ![] bcast_S_S4096x2048 (constantI S_ 32 15#32))) (broadcastInDim S4096x2048 ![] bcast_S_S4096x2048 (constantI S_ 32 7#32))) (subi (andi wp (broadcastInDim S4096x2048 ![] bcast_S_S4096x2048 (constantI S_ 32 15#32))) (broadcastInDim S4096x2048 ![] bcast_S_S4096x2048 (constantI S_ 32 16#32))) (andi wp (broadcastInDim S4096x2048 ![] bcast_S_S4096x2048 (constantI S_ 32 15#32)))))⟩, ⟨S4096x2048x1, (broadcastInDim S4096x2048x1 ![0, 1] bcast_S4096x2048_S4096x2048x1_0_1 (select (cmpi .sgt (andi (Host.shrsi wp (broadcastInDim S4096x2048 ![] bcast_S_S4096x2048 (constantI S_ 32 4#32))) (broadcastInDim S4096x2048 ![] bcast_S_S4096x2048 (constantI S_ 32 15#32))) (broadcastInDim S4096x2048 ![] bcast_S_S4096x2048 (constantI S_ 32 7#32))) (subi (andi (Host.shrsi wp (broadcastInDim S4096x2048 ![] bcast_S_S4096x2048 (constantI S_ 32 4#32))) (broadcastInDim S4096x2048 ![] bcast_S_S4096x2048 (constantI S_ 32 15#32))) (broadcastInDim S4096x2048 ![] bcast_S_S4096x2048 (constantI S_ 32 16#32))) (andi (Host.shrsi wp (broadcastInDim S4096x2048 ![] bcast_S_S4096x2048 (constantI S_ 32 4#32))) (broadcastInDim S4096x2048 ![] bcast_S_S4096x2048 (constantI S_ 32 15#32)))))⟩] concatenates_S4096x2048x1_S4096x2048x1_S4096x2048x2_d2) shapeCasts_S4096x2048x2_S4096x4096

/-- It is the stage the reference's reshape writes. -/
theorem Wref_eq (wp : IVec S4096x2048 32) : Wref wp = val_main_v30 (F := Ideal) wp := rfl

/-! ## The row maximum -/

/-- Dropping the second axis of an 8192 × 4096 array leaves its 8192 rows. -/
theorem rowReduces : S8192x4096.Reduces [1] S8192 := by decide

/-- Row r with the coordinate k put back on the dropped axis is the index (r, k). -/
theorem lift_eq (r : Fin 8192) (k : Fin 4096) : rowReduces.lift (ix1 r) k = ix2 r k :=
  funext fun a => Fin.ext (by match a with | ⟨0, _⟩ => rfl | ⟨1, _⟩ => rfl)

/-- The reduction at row r is the maximum of |x r k| over the row's coordinates, from -∞: a maximum is
    commutative and associative, so the order of the fold does not matter. -/
theorem rowMax_at (x : FVec Ideal S8192x4096 .f32) (r : Fin 8192) :
    val_main_v1 (F := Ideal) x (ix1 r) = Cert.Spec.rowMax x r := by
  unfold val_main_v1
  refine (Host.reduce_eq_fold_single (FloatOps.maximumf (F := Ideal) (φ := .f32)) _ _
    reducesTo_S8192x4096_S8192_d1 rowReduces h_S_ (ix1 r)).trans ?_
  unfold Cert.Spec.rowMax
  refine Finset.fold_congr (fun k _ => ?_)
  exact congrArg (val_main_v0 (F := Ideal) x) (lift_eq r k)

/-! ## The row's step, the quantised entries, the weights, the scale product -/

/-- The step at the keepdims index (r, 0) is max (rowMax / 7) ε. -/
theorem scale_at (x : FVec Ideal S8192x4096 .f32) (r : Fin 8192) :
    val_main_v6 (F := Ideal) x (ix2 r (0 : Fin 1)) = Cert.Spec.scale x r := by
  have e2 : idx_main_v2 (ix2 r (0 : Fin 1)) = ix1 r := funext fun a => by match a with | ⟨0, _⟩ => rfl
  rw [val_main_v6_apply, val_main_v4_apply, val_main_v2_apply, val_main_v3_apply, val_main_v5_apply,
    val_main_cst_0_apply, val_main_cst_1_apply, e2, rowMax_at]
  rfl

/-- The clipped, rounded quotient at (r, k) is the specification's quantised entry. -/
theorem quant_at (x : FVec Ideal S8192x4096 .f32) (r : Fin 8192) (k : Fin 4096) :
    val_main_v10 (F := Ideal) x (ix2 r k) = Cert.Spec.quant x r k := by
  have e7 : idx_main_v7 (ix2 r k) = ix2 r (0 : Fin 1) :=
    funext fun a => by match a with | ⟨0, _⟩ => rfl | ⟨1, _⟩ => rfl
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, e7, scale_at]
  rfl

/-- The converted weight at (o, k) is the integer entry of the unpacked matrix as a real. -/
theorem wreal_at (wp : IVec S4096x2048 32) (o k : Fin 4096) :
    val_main_v31 (F := Ideal) wp (ix2 o k) = Cert.Spec.wreal (Wref wp) o k := rfl

/-- The scale product at (r, o) is the row's step times the column's scale. -/
theorem scaleProd_at (x : FVec Ideal S8192x4096 .f32) (ws : FVec Ideal S4096 .f32) (r : Fin 8192) (o : Fin 4096) :
    val_main_v36 (F := Ideal) x ws (ix2 r o) = Cert.Spec.scale x r * ws (ix1 o) := by
  have e34 : idx_main_v34 (ix2 r o) = ix2 r (0 : Fin 1) :=
    funext fun a => by match a with | ⟨0, _⟩ => rfl | ⟨1, _⟩ => rfl
  have e35 : idx_main_v33 (idx_main_v35 (ix2 r o)) = ix1 o := funext fun a => by match a with | ⟨0, _⟩ => rfl
  rw [val_main_v36_apply, val_main_v34_apply, val_main_v35_apply, val_main_v33_apply, e34, e35, scale_at]
  rfl

/-! ## The result -/

/-- The reference's result term is the specification of the activations, the unpacked weights and the column
    scales: at (r, o) the contraction reads the quantised row r against row o of the weights, and the
    epilogue multiplies by step × scale. -/
theorem result_eq (x : FVec Ideal S8192x4096 .f32) (wp : IVec S4096x2048 32) (ws : FVec Ideal S4096 .f32) :
    mulf (Host.dotGeneral dot_S8192x4096_S4096x4096_S8192x4096_1_1_0_0_n_n none (minimumf (broadcastInDim S8192x4096 ![] bcast_S_S8192x4096 (id (constant S_ .f32 0x40E00000#32))) (maximumf (broadcastInDim S8192x4096 ![] bcast_S_S8192x4096 (id (constant S_ .f32 0xC1000000#32))) (Host.roundeven (Host.divf x (broadcastInDim S8192x4096 ![0, 1] bcast_S8192x1_S8192x4096_0_1 (maximumf (Host.divf (broadcastInDim S8192x1 ![0] bcast_S8192_S8192x1_0 (Host.reduce FloatOps.maximumf (Host.absf x) (constant S_ .f32 0xFF800000#32) reducesTo_S8192x4096_S8192_d1 h_S_)) (broadcastInDim S8192x1 ![] bcast_S_S8192x1 (constant S_ .f32 0x40E00000#32))) (broadcastInDim S8192x1 ![] bcast_S_S8192x1 (constant S_ .f32 0x3727C5AC#32)))))))) (sitofp .f32 (shapeCast _ (concatenate S4096x2048x2 2 [⟨S4096x2048x1, (broadcastInDim S4096x2048x1 ![0, 1] bcast_S4096x2048_S4096x2048x1_0_1 (select (cmpi .sgt (andi wp (broadcastInDim S4096x2048 ![] bcast_S_S4096x2048 (constantI S_ 32 15#32))) (broadcastInDim S4096x2048 ![] bcast_S_S4096x2048 (constantI S_ 32 7#32))) (subi (andi wp (broadcastInDim S4096x2048 ![] bcast_S_S4096x2048 (constantI S_ 32 15#32))) (broadcastInDim S4096x2048 ![] bcast_S_S4096x2048 (constantI S_ 32 16#32))) (andi wp (broadcastInDim S4096x2048 ![] bcast_S_S4096x2048 (constantI S_ 32 15#32)))))⟩, ⟨S4096x2048x1, (broadcastInDim S4096x2048x1 ![0, 1] bcast_S4096x2048_S4096x2048x1_0_1 (select (cmpi .sgt (andi (Host.shrsi wp (broadcastInDim S4096x2048 ![] bcast_S_S4096x2048 (constantI S_ 32 4#32))) (broadcastInDim S4096x2048 ![] bcast_S_S4096x2048 (constantI S_ 32 15#32))) (broadcastInDim S4096x2048 ![] bcast_S_S4096x2048 (constantI S_ 32 7#32))) (subi (andi (Host.shrsi wp (broadcastInDim S4096x2048 ![] bcast_S_S4096x2048 (constantI S_ 32 4#32))) (broadcastInDim S4096x2048 ![] bcast_S_S4096x2048 (constantI S_ 32 15#32))) (broadcastInDim S4096x2048 ![] bcast_S_S4096x2048 (constantI S_ 32 16#32))) (andi (Host.shrsi wp (broadcastInDim S4096x2048 ![] bcast_S_S4096x2048 (constantI S_ 32 4#32))) (broadcastInDim S4096x2048 ![] bcast_S_S4096x2048 (constantI S_ 32 15#32)))))⟩] concatenates_S4096x2048x1_S4096x2048x1_S4096x2048x2_d2) shapeCasts_S4096x2048x2_S4096x4096))) (mulf (broadcastInDim S8192x4096 ![0, 1] bcast_S8192x1_S8192x4096_0_1 (maximumf (Host.divf (broadcastInDim S8192x1 ![0] bcast_S8192_S8192x1_0 (Host.reduce FloatOps.maximumf (Host.absf x) (constant S_ .f32 0xFF800000#32) reducesTo_S8192x4096_S8192_d1 h_S_)) (broadcastInDim S8192x1 ![] bcast_S_S8192x1 (constant S_ .f32 0x40E00000#32))) (broadcastInDim S8192x1 ![] bcast_S_S8192x1 (constant S_ .f32 0x3727C5AC#32)))) (broadcastInDim S8192x4096 ![0, 1] bcast_S1x4096_S8192x4096_0_1 (broadcastInDim S1x4096 ![1] bcast_S4096_S1x4096_1 ws)))
      = Cert.Spec.out x (Wref wp) ws := by
  refine (val_main_v37_eq (F := Ideal) x wp ws).trans ?_
  funext i
  obtain ⟨r, o, rfl⟩ : ∃ (r : Fin 8192) (o : Fin 4096), i = ix2 r o := ⟨i 0, i 1, eq_ix2 i⟩
  have el : ∀ k : Fin 4096, lidx_main_v32 (ix2 r o) k = ix2 r k := fun k =>
    funext fun a => by match a with | ⟨0, _⟩ => rfl | ⟨1, _⟩ => rfl
  have er : ∀ k : Fin 4096, ridx_main_v32 (ix2 r o) k = ix2 o k := fun k =>
    funext fun a => by match a with | ⟨0, _⟩ => rfl | ⟨1, _⟩ => rfl
  rw [val_main_v37_apply, val_main_v32_apply, scaleProd_at]
  simp only [el, er, quant_at, wreal_at]
  rfl

/-- On every device, from any memory with zero counters, every weakly fair execution of the reference ends with its
    result at the specification of the arguments' launch contents, the arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = Cert.Spec.out (m ((c.tc : Thread nD τ).loc main_arg0)) (Wref (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩) (Value.run (F := Ideal) m ρ)

end Cert.ReferenceIdeal.RefValue

end
-- ==== Proof.HostValue.lean ====
/-
  What the kernel program's host operations leave in the two arrays the matmul region reads besides the quantised
  activations: the unpacked integer weights converted to floats, and the column scales as a one-row matrix.

  Before its two kernel regions the program unpacks the packed words exactly as the reference does (the low
  nibble at the even column, the high nibble at the odd one, a nibble above 7 lowered by 16), reshapes to
  4096 × 4096 and converts to floats; over the extended reals a converted integer is that integer. It also
  reshapes the 4096 column scales to 1 × 4096, which reads the scale of column j at (0, j). The integer chain is
  never opened: it stays folded in Wker, which is the reference's unpacked matrix.
-/
import proofs.«422675_j1176821039708_3_alg».proof.Proof.Gen.KernelIdeal.Regions
import Idealize.ShloMosaic.Lib.StableHlo.Run
import Idealize.ShloMosaic.Lib.ValueIdx
import Idealize.ShloMosaic.Lib.ValueLayout
import proofs.«422675_j1176821039708_3_alg».proof.Proof.RefValue

noncomputable section

namespace Cert.KernelIdeal.HostValue

open Cert.KernelIdeal Cert.KernelIdeal.Gen Idealize.ShloMosaic Idealize.ShloMosaic.TcCoe Idealize.SL.Sem
  Idealize.ShloMosaic.StableHlo Idealize.ShloMosaic.ValueIdx

/-- The integer weight matrix the kernel program unpacks, as a function of the packed words: entry (o, 2c) is the
    low nibble of word (o, c) and entry (o, 2c + 1) its high nibble, a nibble above 7 lowered by 16. -/
def Wker (wp : IVec S4096x2048 32) : S4096x4096.Idx → BitVec 32 :=
  shapeCast _ (concatenate S4096x2048x2 2 [⟨S4096x2048x1, (broadcastInDim S4096x2048x1 ![0, 1] bcast_S4096x2048_S4096x2048x1_0_1 (select (cmpi .sgt (andi wp (broadcastInDim S4096x2048 ![] bcast_S_S4096x2048 (constantI S_ 32 15#32))) (broadcastInDim S4096x2048 ![] bcast_S_S4096x2048 (constantI S_ 32 7#32))) (subi (andi wp (broadcastInDim S4096x2048 ![] bcast_S_S4096x2048 (constantI S_ 32 15#32))) (broadcastInDim S4096x2048 ![] bcast_S_S4096x2048 (constantI S_ 32 16#32))) (andi wp (broadcastInDim S4096x2048 ![] bcast_S_S4096x2048 (constantI S_ 32 15#32)))))⟩, ⟨S4096x2048x1, (broadcastInDim S4096x2048x1 ![0, 1] bcast_S4096x2048_S4096x2048x1_0_1 (select (cmpi .sgt (andi (Host.shrsi wp (broadcastInDim S4096x2048 ![] bcast_S_S4096x2048 (constantI S_ 32 4#32))) (broadcastInDim S4096x2048 ![] bcast_S_S4096x2048 (constantI S_ 32 15#32))) (broadcastInDim S4096x2048 ![] bcast_S_S4096x2048 (constantI S_ 32 7#32))) (subi (andi (Host.shrsi wp (broadcastInDim S4096x2048 ![] bcast_S_S4096x2048 (constantI S_ 32 4#32))) (broadcastInDim S4096x2048 ![] bcast_S_S4096x2048 (constantI S_ 32 15#32))) (broadcastInDim S4096x2048 ![] bcast_S_S4096x2048 (constantI S_ 32 16#32))) (andi (Host.shrsi wp (broadcastInDim S4096x2048 ![] bcast_S_S4096x2048 (constantI S_ 32 4#32))) (broadcastInDim S4096x2048 ![] bcast_S_S4096x2048 (constantI S_ 32 15#32)))))⟩] concatenates_S4096x2048x1_S4096x2048x1_S4096x2048x2_d2) shapeCasts_S4096x2048x2_S4096x4096

variable (m : (ℓ : Loc nD τ sig) → Buf (Elt Ideal) ℓ) (c : Dev nD)

/-- After the host operations the weight array holds, at each index, the unpacked integer as a real. -/
theorem V5_main_v20 :
    (V5 (F := Ideal) m c main_v20 : S4096x4096.Idx → EReal)
      = (fun i => ((((Wker (m ((c.tc : Thread nD τ).loc main_arg1))) i).toInt : ℝ) : EReal)) := by
  dsimp only [V5, V4, V3, V2, V1, V0]
  after_results_simp
  rfl

/-- After the host operations the one-row scale matrix holds, at (0, j), the scale of column j. -/
theorem V5_main_v21 :
    (V5 (F := Ideal) m c main_v21 : S1x4096.Idx → EReal)
      = (fun i => (m ((c.tc : Thread nD τ).loc main_arg2)) (ix1 (i 1))) := by
  dsimp only [V5, V4, V3, V2, V1, V0]
  after_results_simp
  funext i
  obtain ⟨u, j, rfl⟩ : ∃ (u : Fin 1) (j : Fin 4096), i = ix2 u j := ⟨i 0, i 1, eq_ix2 i⟩
  exact shapeCast_a_1a_apply _ shapeCasts_S4096_S1x4096 u j

/-- The kernel program's unpacked matrix is the reference's: the same operations on the same words. -/
theorem Wker_eq_Wref (wp : IVec S4096x2048 32) : Wker wp = Cert.ReferenceIdeal.RefValue.Wref wp := rfl

end Cert.KernelIdeal.HostValue

end
-- ==== Proof.QuantValue.lean ====
/-
  The activation-quantisation region's two result arrays as functions of the activations, index by index, over the
  extended reals: the per-row scale max(rowmax|x|/7, ε) and the quantised entries clip(roundeven(x/scale), -8, 7).
  First each payload of the body at an index of its 512-row block, as a term of the block's entries; then the block
  read back as rows of the array; then the sixteen blocks tile the 8192 rows, so each array ends at its function.
-/
import proofs.«422675_j1176821039708_3_alg».proof.Proof.QuantRegion
import proofs.«422675_j1176821039708_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QuantValue

open Cert.KernelIdeal Cert.KernelIdeal.Gen
open Idealize.ShloMosaic Idealize.ShloMosaic.TcCoe Idealize.ShloMosaic.ValueIdx
open Idealize.ShloMosaic.Pipeline (Dat)

/-! ## Two layout operations at an index: a column kept as a unit axis -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index of the block -/

/-- A block row's largest absolute value, folded from -∞. -/
def blkRowMax (x0 : FVec Ideal S512x4096 .f32) (p : Fin 512) : EReal :=
  (Finset.univ : Finset (Fin 4096)).fold max Spec.negInf (fun k => max (x0 (ix2 p k)) (-(x0 (ix2 p k))))

/-- A block row's quantisation step. -/
def blkScale (x0 : FVec Ideal S512x4096 .f32) (p : Fin 512) : EReal :=
  max (Ideal.div (blkRowMax x0 p) Spec.seven) Spec.eps

/-- The lane maximum of the absolute values at row p is the fold of max over the row. -/
theorem rowmax_apply (x0 : FVec Ideal S512x4096 .f32) (p : Fin 512)
    (hacc : (0xFF800000#32 : BitVec 32) = 0xFF800000#32) :
    multiReduction (F := Ideal) .maximumf [1] S512 (absf x0) 0xFF800000#32 reduces_S512x4096_S512 (.inl rfl) hacc (ix1 p)
      = blkRowMax x0 p := by
  refine (Ideal.multiReduction_maximumf_single (φ := .f32) (s := S512x4096) (t := S512) (a := 1) (absf x0) 0xFF800000#32
    reduces_S512x4096_S512 (.inl rfl) hacc (ix1 p)).trans ?_
  unfold blkRowMax
  have e : ((absf x0 : FVec Ideal S512x4096 .f32) ∘ reduces_S512x4096_S512.lift (ix1 p))
      = fun k : Fin 4096 => max (x0 (ix2 p k)) (-(x0 (ix2 p k))) := by
    funext k
    have hk : reduces_S512x4096_S512.lift (ix1 p) k = ix2 p k := by
      funext a; apply Fin.ext
      match a with
      | ⟨0, _⟩ => rfl
      | ⟨1, _⟩ => rfl
    show FloatOps.absf (x0 (reduces_S512x4096_S512.lift (ix1 p) k)) = _
    rw [hk]; rfl
  rw [e]; rfl

/-- The scale payload at row p of the block. -/
theorem pay1_apply (x0 : FVec Ideal S512x4096 .f32) (p : Fin 512) (u : Fin 1) :
    k0_pay1 (F := Ideal) x0 (ix2 p u) = blkScale x0 p := by
  unfold k0_pay1
  show max (Ideal.div (shapeCast S512x1 (multiReduction (F := Ideal) .maximumf [1] S512 (absf x0) 0xFF800000#32 reduces_S512x4096_S512 (.inl rfl) rfl) shapeCasts_S512_S512x1 (ix2 p u)) (Ideal.ofBits .f32 0x40E00000#32)) (Ideal.ofBits .f32 0x3727C5AC#32) = _
  unfold blkScale
  refine congrArg (fun z => max (Ideal.div z Spec.seven) Spec.eps) ?_
  refine (shapeCast_a_a1_apply _ _ p u).trans ?_
  exact rowmax_apply x0 p rfl

/-- The quantised payload at (p, q) of the block. -/
theorem pay2_apply (x0 : FVec Ideal S512x4096 .f32) (p : Fin 512) (q : Fin 4096) :
    k0_pay2 (F := Ideal) x0 (ix2 p q)
      = min Spec.seven (max Spec.negEight (Ideal.liftRound Ideal.roundHalfEven (Ideal.div (x0 (ix2 p q)) (blkScale x0 p)))) := by
  unfold k0_pay2
  show min (Ideal.ofBits .f32 0x40E00000#32) (max (Ideal.ofBits .f32 0xC1000000#32) (Ideal.liftRound Ideal.roundHalfEven
      (Ideal.div (x0 (ix2 p q)) (broadcastTo S512x4096 (k0_pay1 (F := Ideal) x0) broadcasts_S512x1_S512x4096 (ix2 p q))))) = _
  refine congrArg (fun z => min Spec.seven (max Spec.negEight (Ideal.liftRound Ideal.roundHalfEven (Ideal.div (x0 (ix2 p q)) z)))) ?_
  refine (broadcastTo_a1_ab_apply _ _ p q).trans ?_
  exact pay1_apply x0 p 0

/-! ## The body's two results are its payloads of the loaded block -/

theorem hz : (![0, 0] : Fin 2 → Nat) = fun _ => 0 := funext fun a => by fin_cases a <;> rfl

/-- One store of the whole block after one load of the whole block: the quantised payload of the input block. -/
theorem outQ_eq (x0 : Vec Ideal S512x4096 .f32) : Quant.outQ (F := Ideal) x0 = k0_pay2 x0 := by
  unfold Quant.outQ
  rw [View.canon_unit_zero hz, View.ld_unit_zero (S := S512x4096) hz]

/-- Likewise the scale column. -/
theorem outS_eq (x0 : Vec Ideal S512x4096 .f32) : Quant.outS (F := Ideal) x0 = k0_pay1 x0 := by
  unfold Quant.outS
  rw [View.canon_unit_zero hz, View.ld_unit_zero (S := S512x4096) hz]

/-! ## The specification's two arrays -/

/-- The quantised activations as an array: entry (r, k) is the specification's quant at row r, column k. -/
def GQ (x : FVec Ideal S8192x4096 .f32) : S8192x4096.Idx → EReal := fun i => Spec.quant x (i 0) (i 1)

/-- The scales as a column: entry (r, 0) is the specification's scale of row r. -/
def GS (x : FVec Ideal S8192x4096 .f32) : S8192x1.Idx → EReal := fun i => Spec.scale x (i 0)

theorem GQ_apply (x : FVec Ideal S8192x4096 .f32) (i : S8192x4096.Idx) : GQ x i = Spec.quant x (i 0) (i 1) := rfl
theorem GS_apply (x : FVec Ideal S8192x4096 .f32) (i : S8192x1.Idx) : GS x i = Spec.scale x (i 0) := rfl

/-! ## A block's rows are the array's rows -/

/-- A block row that agrees entry by entry with an array row has the array row's maximum … -/
theorem blkRowMax_eq (X : FVec Ideal S8192x4096 .f32) (x0 : FVec Ideal S512x4096 .f32) (p : Fin 512) (r : Fin 8192)
    (h : ∀ k : Fin 4096, x0 (ix2 p k) = X (ix2 r k)) : blkRowMax x0 p = Spec.rowMax X r := by
  unfold blkRowMax Spec.rowMax
  have e : (fun k : Fin 4096 => max (x0 (ix2 p k)) (-(x0 (ix2 p k)))) = fun k : Fin 4096 => max (X (ix2 r k)) (-(X (ix2 r k))) :=
    funext fun k => by rw [h k]
  rw [e]

/-- … and so its step. -/
theorem blkScale_eq (X : FVec Ideal S8192x4096 .f32) (x0 : FVec Ideal S512x4096 .f32) (p : Fin 512) (r : Fin 8192)
    (h : ∀ k : Fin 4096, x0 (ix2 p k) = X (ix2 r k)) : blkScale x0 p = Spec.scale X r := by
  unfold blkScale Spec.scale
  rw [blkRowMax_eq X x0 p r h]

/-- The quantised payload of a block that holds rows T·512 … T·512+511 of the array, at block index j, is the
    specification's array at the index j names: row T·512 + j 0, column j 1. -/
theorem pay2_rows (X : FVec Ideal S8192x4096 .f32) (x0 : FVec Ideal S512x4096 .f32) (T : Nat)
    (hx : ∀ (p : Fin 512) (k : Fin 4096) (r : Fin 8192), r.val = T * 512 + p.val → x0 (ix2 p k) = X (ix2 r k))
    (j : S512x4096.Idx) (i : S8192x4096.Idx) (h0 : (i 0).val = T * 512 + (j 0).val) (h1 : (i 1).val = (j 1).val) :
    k0_pay2 (F := Ideal) x0 j = GQ X i := by
  obtain ⟨p, q, rfl⟩ : ∃ (p : Fin 512) (q : Fin 4096), j = ix2 p q := ⟨j 0, j 1, eq_ix2 j⟩
  obtain ⟨r, s, rfl⟩ : ∃ (r : Fin 8192) (s : Fin 4096), i = ix2 r s := ⟨i 0, i 1, eq_ix2 i⟩
  have hr : r.val = T * 512 + p.val := h0
  obtain rfl : s = q := Fin.ext h1
  rw [pay2_apply]
  show _ = min Spec.seven (max Spec.negEight (Ideal.liftRound Ideal.roundHalfEven (Ideal.div (X (ix2 r s)) (Spec.scale X r))))
  rw [hx p s r hr, blkScale_eq X x0 p r (fun k => hx p k r hr)]

/-- The scale payload of such a block at block index j is the specification's scale of row T·512 + j 0. -/
theorem pay1_rows (X : FVec Ideal S8192x4096 .f32) (x0 : FVec Ideal S512x4096 .f32) (T : Nat)
    (hx : ∀ (p : Fin 512) (k : Fin 4096) (r : Fin 8192), r.val = T * 512 + p.val → x0 (ix2 p k) = X (ix2 r k))
    (j : S512x1.Idx) (i : S8192x1.Idx) (h0 : (i 0).val = T * 512 + (j 0).val) :
    k0_pay1 (F := Ideal) x0 j = GS X i := by
  obtain ⟨p, u, rfl⟩ : ∃ (p : Fin 512) (u : Fin 1), j = ix2 p u := ⟨j 0, j 1, eq_ix2 j⟩
  obtain ⟨r, s, rfl⟩ : ∃ (r : Fin 8192) (s : Fin 1), i = ix2 r s := ⟨i 0, i 1, eq_ix2 i⟩
  have hr : r.val = T * 512 + p.val := h0
  rw [pay1_apply]
  show _ = Spec.scale X r
  exact blkScale_eq X x0 p r (fun k => hx p k r hr)

/-! ## From blocks to the arrays -/

variable (V : (c : Dev nD) → (b : Ref sig .tc) → Buf (Elt Ideal) ((c : Thread nD τ).loc b))

/-- The printed index maps, decided over the grid: at point t each of the three windows is at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point t holds rows 512·t … 512·t+511 of the activations. -/
theorem iblk_apply (c : Dev nD) (t : Fin cfg0.N) (p : Fin 512) (k : Fin 4096) (r : Fin 8192) (hr : r.val = t.val * 512 + p.val) :
    (Quant.iblk V c 0 t : Vec Ideal S512x4096 .f32) (ix2 p k) = (V c main_arg0 : S8192x4096.Idx → EReal) (ix2 r k) := by
  obtain ⟨e0, e1, -⟩ := idx_facts t
  unfold Quant.iblk
  rw [View.read_apply]
  show V c main_arg0 (((cfg0.win 0).blk t).view.emb (ix2 p k)) = V c main_arg0 (ix2 r k)
  congr 1
  funext a; apply Fin.ext
  match a with
  | ⟨0, _⟩ => show win0_0.index t (0 : Fin 2) * 512 + 1 * p.val = r.val; omega
  | ⟨1, _⟩ => show win0_0.index t (1 : Fin 2) * 4096 + 1 * k.val = k.val; omega

/-- What point t writes back into the quantised activations is block t of the specification's array. -/
theorem flushedQ_eq (c : Dev nD) (t : Fin cfg0.N) :
    (Quant.dat (F := Ideal) V c).flushed 1 t = ((cfg0.win 1).blk t).view.read (Elt Ideal) (GQ (V c main_arg0)) := by
  show (cfg0.win 1).cut (grid0.coords t) ((Quant.dat (F := Ideal) V c).after 1 t) = _
  rw [Quant.after_1, outQ_eq]
  obtain ⟨-, -, e2, e3, -, -⟩ := idx_facts t
  funext j
  rw [View.read_apply]
  show k0_pay2 (F := Ideal) (Quant.iblk V c 0 t) j = GQ (V c main_arg0) (((cfg0.win 1).blk t).view.emb j)
  refine pay2_rows (V c main_arg0) (Quant.iblk V c 0 t) t.val (fun p k r hr => iblk_apply V c t p k r hr) j _ ?_ ?_
  · show win0_1.index t (0 : Fin 2) * 512 + 1 * (j 0).val = t.val * 512 + (j 0).val; omega
  · show win0_1.index t (1 : Fin 2) * 4096 + 1 * (j 1).val = (j 1).val; omega

/-- What point t writes back into the scales is block t of the specification's column. -/
theorem flushedS_eq (c : Dev nD) (t : Fin cfg0.N) :
    (Quant.dat (F := Ideal) V c).flushed 2 t = ((cfg0.win 2).blk t).view.read (Elt Ideal) (GS (V c main_arg0)) := by
  show (cfg0.win 2).cut (grid0.coords t) ((Quant.dat (F := Ideal) V c).after 2 t) = _
  rw [Quant.after_2, outS_eq]
  obtain ⟨-, -, -, -, e4, e5⟩ := idx_facts t
  funext j
  rw [View.read_apply]
  show k0_pay1 (F := Ideal) (Quant.iblk V c 0 t) j = GS (V c main_arg0) (((cfg0.win 2).blk t).view.emb j)
  refine pay1_rows (V c main_arg0) (Quant.iblk V c 0 t) t.val (fun p k r hr => iblk_apply V c t p k r hr) j _ ?_
  show win0_2.index t (0 : Fin 2) * 512 + 1 * (j 0).val = t.val * 512 + (j 0).val; omega

/-- An index of the quantised array is in point t's block iff each coordinate is in the block's range on its axis. -/
theorem mem_blkQ (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v22_0).slice (win0_1.rect t)).set ↔ _
  rw [View.set_slice_whole, Rect.mem_set_unit]
  exact Iff.rfl

/-- The same for the scale column. -/
theorem mem_blkS (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v22_1).slice (win0_2.rect t)).set ↔ _
  rw [View.set_slice_whole, Rect.mem_set_unit]
  exact Iff.rfl

/-- Row r of the quantised array is in the block of point r / 512: the sixteen blocks tile the 8192 rows. -/
theorem coverQ (i : S8192x4096.Idx) : ∃ t : Fin cfg0.N, (cfg0.win 1).flush t = true ∧ i ∈ ((cfg0.win 1).blk t).view.set := by
  have h0 : (i 0).val < 8192 := idx2_lt0 i
  have h1 : (i 1).val < 4096 := idx2_lt1 i
  obtain ⟨t, ht⟩ : ∃ t : Fin cfg0.N, t.val = (i 0).val / 512 :=
    ⟨⟨(i 0).val / 512, by rw [show cfg0.N = 16 from N_0]; omega⟩, rfl⟩
  obtain ⟨-, -, e2, e3, -, -⟩ := idx_facts t
  refine ⟨t, flush0_1 t, ?_⟩
  rw [mem_blkQ]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- Likewise the scale column. -/
theorem coverS (i : S8192x1.Idx) : ∃ t : Fin cfg0.N, (cfg0.win 2).flush t = true ∧ i ∈ ((cfg0.win 2).blk t).view.set := by
  have h0 : (i 0).val < 8192 := idx2_lt0 i
  have h1 : (i 1).val < 1 := idx2_lt1 i
  obtain ⟨t, ht⟩ : ∃ t : Fin cfg0.N, t.val = (i 0).val / 512 :=
    ⟨⟨(i 0).val / 512, by rw [show cfg0.N = 16 from N_0]; omega⟩, rfl⟩
  obtain ⟨-, -, -, -, e4, e5⟩ := idx_facts t
  refine ⟨t, flush0_2 t, ?_⟩
  rw [mem_blkS]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- THE QUANTISED ACTIVATIONS after the region: the specification's quant of the activations as the region finds them. -/
theorem finalQ (c : Dev nD) : (Quant.dat (F := Ideal) V c).arrAt 1 cfg0.N = GQ (V c main_arg0) :=
  (Quant.dat (F := Ideal) V c).arrAt_eq_of_cover 1 (GQ (V c main_arg0)) (fun t _ => flushedQ_eq V c t) coverQ

/-- THE SCALES after the region: the specification's scale of each row. -/
theorem finalS (c : Dev nD) : (Quant.dat (F := Ideal) V c).arrAt 2 cfg0.N = GS (V c main_arg0) :=
  (Quant.dat (F := Ideal) V c).arrAt_eq_of_cover 2 (GS (V c main_arg0)) (fun t _ => flushedS_eq V c t) coverS

end Cert.KernelIdeal.QuantValue

end
-- ==== Proof.MatmulValue.lean ====
/-
  The matmul region's result array, entry by entry, over the extended reals.

  The grid is 8 × 2 × 8, point t = (i·2 + j)·8 + k with i = t / 16, j = t / 8 mod 2, k = t mod 8. Read at (p, q):
    the cleared accumulator is 0;
    one step adds ∑ₖₖ x(p, kk) · w(q, kk) over the 512 contraction coordinates of the two blocks;
    the stored block is the accumulator times xs(p, 0) · ws(0, q).
  The activation block of point t is rows i·1024 … and contraction coordinates k·512 … of the quantised activations,
  the weight block rows j·2048 … and the same contraction coordinates of the weights, the two scale blocks the same
  rows and columns of the scale arrays. So along one run k = 0 … 7 the accumulator is the sum of the first k + 1
  block products, at k = 7 the sum over all eight blocks, which is the sum over the 4096 contraction coordinates;
  the point (i, j, 7) stores block (i, j) of
      out (r, o) = (∑ₖ quant r k · W o k) · (scale r · ws o),
  and these 16 blocks tile the 8192 × 4096 array.
-/
import proofs.«422675_j1176821039708_3_alg».proof.Proof.MatmulRegion
import proofs.«422675_j1176821039708_3_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.MatmulValue

open Cert.KernelIdeal Cert.KernelIdeal.Gen
open Idealize.ShloMosaic Idealize.ShloMosaic.TcCoe Idealize.ShloMosaic.ValueIdx
open Idealize.ShloMosaic.Pipeline (Dat Cfg Window)

/-! ## The three payloads read at an index, over the extended reals -/

/-- The matmul's left operand index at output (p, q) and contraction coordinate k: row p on axis 0, -/
theorem lhs_axis0 (i : S1024x2048.Idx) (k : dot_S1024x512_S2048x512_S1024x2048_1_1_0_0_n_n.contr.Idx) :
    (dot_S1024x512_S2048x512_S1024x2048_1_1_0_0_n_n.lhsIdx i k 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- k on axis 1; -/
theorem lhs_axis1 (i : S1024x2048.Idx) (k : dot_S1024x512_S2048x512_S1024x2048_1_1_0_0_n_n.contr.Idx) :
    (dot_S1024x512_S2048x512_S1024x2048_1_1_0_0_n_n.lhsIdx i k 1).val = (k ⟨0, by decide⟩).val :=
  dot_S1024x512_S2048x512_S1024x2048_1_1_0_0_n_n.lhsIdx_val_of_single rfl i k
/-- the right operand's: row q on axis 0, -/
theorem rhs_axis0 (i : S1024x2048.Idx) (k : dot_S1024x512_S2048x512_S1024x2048_1_1_0_0_n_n.contr.Idx) :
    (dot_S1024x512_S2048x512_S1024x2048_1_1_0_0_n_n.rhsIdx i k 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- k on axis 1. -/
theorem rhs_axis1 (i : S1024x2048.Idx) (k : dot_S1024x512_S2048x512_S1024x2048_1_1_0_0_n_n.contr.Idx) :
    (dot_S1024x512_S2048x512_S1024x2048_1_1_0_0_n_n.rhsIdx i k 1).val = (k ⟨0, by decide⟩).val :=
  dot_S1024x512_S2048x512_S1024x2048_1_1_0_0_n_n.rhsIdx_val_of_single rfl i k

/-- The product of an activation block with a transposed weight block, into the zero accumulator, at (p, q):
    the sum over the 512 contraction coordinates of x(p, k) · w(q, k). -/
theorem matmul_at (x : FVec Ideal S1024x512 .bf16) (w : FVec Ideal S2048x512 .bf16) (p : Fin 1024) (q : Fin 2048) :
    matmul dot_S1024x512_S2048x512_S1024x2048_1_1_0_0_n_n none x w (constant S1024x2048 .f32 0x00000000#32) (ix2 p q)
      = ∑ kk : Fin 512, x (ix2 p kk) * w (ix2 q kk) := by
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- The cleared accumulator is zero everywhere. -/
theorem pay1_at (j : S1024x2048.Idx) : (k1_pay1 (F := Ideal)) j = 0 := by
  unfold k1_pay1
  simp only [shapeCast_self]
  show Ideal.ofBits .f32 0x00000000#32 = 0
  exact Ideal.ofBits_zero_f32

/-- One accumulation step at (p, q): the accumulator there plus the partial product. -/
theorem pay2_at (a : FVec Ideal S1024x2048 .f32) (x : FVec Ideal S1024x512 .bf16) (w : FVec Ideal S2048x512 .bf16)
    (p : Fin 1024) (q : Fin 2048) :
    k1_pay2 (F := Ideal) a x w (ix2 p q) = a (ix2 p q) + ∑ kk : Fin 512, x (ix2 p kk) * w (ix2 q kk) := by
  unfold k1_pay2
  simp only [shapeCast_self]
  show a (ix2 p q) + matmul dot_S1024x512_S2048x512_S1024x2048_1_1_0_0_n_n none x w (constant S1024x2048 .f32 0x00000000#32) (ix2 p q) = _
  rw [matmul_at]

/-- The row-scale column [1024,1] spread over the columns reads row p's entry; -/
theorem bcast_col_at (xs : FVec Ideal S1024x1 .f32) (p : Fin 1024) (q : Fin 2048) :
    broadcastTo S1024x2048 xs broadcasts_S1024x1_S1024x2048 (ix2 p q) = xs (ix2 p 0) :=
  broadcastTo_apply xs broadcasts_S1024x1_S1024x2048 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- the column-scale row [1,2048] spread over the rows reads column q's entry. -/
theorem bcast_row_at (ws : FVec Ideal S1x2048 .f32) (p : Fin 1024) (q : Fin 2048) :
    broadcastTo S1024x2048 ws broadcasts_S1x2048_S1024x2048 (ix2 p q) = ws (ix2 0 q) :=
  broadcastTo_apply ws broadcasts_S1x2048_S1024x2048 (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The stored block at (p, q): the accumulator there times the product of the two scales. -/
theorem pay3_at (xs : FVec Ideal S1024x1 .f32) (ws : FVec Ideal S1x2048 .f32) (a : FVec Ideal S1024x2048 .f32)
    (p : Fin 1024) (q : Fin 2048) :
    k1_pay3 (F := Ideal) xs ws a (ix2 p q) = a (ix2 p q) * (xs (ix2 p 0) * ws (ix2 0 q)) := by
  unfold k1_pay3
  simp only [shapeCast_self]
  show a (ix2 p q) * (broadcastTo S1024x2048 xs broadcasts_S1024x1_S1024x2048 (ix2 p q) * broadcastTo S1024x2048 ws broadcasts_S1x2048_S1024x2048 (ix2 p q)) = _
  rw [bcast_col_at, bcast_row_at]

/-! ## The input blocks, read where the arrays' indices say -/

variable (V : (c : Dev nD) → (b : Ref sig .tc) → Buf (Elt Ideal) ((c : Thread nD τ).loc b))

/-- The four input arrays as the region finds them: the quantised activations, the weights, the row scales, the
    column scales. -/
abbrev Xq (c : Dev nD) : FVec Ideal S8192x4096 .bf16 := V c main_v22_0
abbrev Wt (c : Dev nD) : FVec Ideal S4096x4096 .bf16 := V c main_v20
abbrev Xs (c : Dev nD) : FVec Ideal S8192x1 .f32 := V c main_v22_1
abbrev Ws (c : Dev nD) : FVec Ideal S1x4096 .f32 := V c main_v21

/-- Row i·1024 + p, column j·2048 + q, contraction coordinate b·512 + kk (reduced into range, which changes nothing
    for i < 8, j < 2, b < 8). -/
def rowN (i : ℕ) (p : Fin 1024) : Fin 8192 := ⟨(i * 1024 + p.val) % 8192, Nat.mod_lt _ (by decide)⟩
def colN (j : ℕ) (q : Fin 2048) : Fin 4096 := ⟨(j * 2048 + q.val) % 4096, Nat.mod_lt _ (by decide)⟩
def conN (b : ℕ) (kk : Fin 512) : Fin 4096 := ⟨(b * 512 + kk.val) % 4096, Nat.mod_lt _ (by decide)⟩

/-- The block indices of the five windows at point t = (i·2 + j)·8 + k: i = t / 16, j = t / 8 mod 2, k = t mod 8. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = 0
    ∧ win1_3.index t (0 : Fin 2) = 0 ∧ win1_3.index t (1 : Fin 2) = t.val / 8 % 2
    ∧ win1_4.index t (0 : Fin 2) = t.val / 16 ∧ win1_4.index t (1 : Fin 2) = t.val / 8 % 2 :=
  (by decide +kernel : ∀ t : Fin grid1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = 0
    ∧ win1_3.index t (0 : Fin 2) = 0 ∧ win1_3.index t (1 : Fin 2) = t.val / 8 % 2
    ∧ win1_4.index t (0 : Fin 2) = t.val / 16 ∧ win1_4.index t (1 : Fin 2) = t.val / 8 % 2)

/-- The activation block of point t holds rows i·1024 …, contraction coordinates k·512 …; -/
theorem xb_at (c : Dev nD) (t : Fin cfg1.N) (p : Fin 1024) (kk : Fin 512) :
    Matmul.xb V c t (ix2 p kk) = Xq V c (ix2 (rowN (t.val / 16) p) (conN (t.val % 8) kk)) := by
  have hN : cfg1.N = 128 := N_1
  have ht := t.isLt
  have hp := p.isLt
  have hk := kk.isLt
  obtain ⟨e0, e1, -⟩ := idx_facts t
  show Matmul.iblk V c 0 t (ix2 p kk) = _
  unfold Matmul.iblk
  rw [View.read_apply]
  show V c main_v22_0 _ = V c main_v22_0 _
  congr 1
  funext a
  apply Fin.ext
  match a with
  | ⟨0, _⟩ => show win1_0.index t 0 * 1024 + 1 * p.val = (t.val / 16 * 1024 + p.val) % 8192; rw [e0]; omega
  | ⟨1, _⟩ => show win1_0.index t 1 * 512 + 1 * kk.val = (t.val % 8 * 512 + kk.val) % 4096; rw [e1]; omega

/-- the weight block rows j·2048 …, the same contraction coordinates; -/
theorem wb_at (c : Dev nD) (t : Fin cfg1.N) (q : Fin 2048) (kk : Fin 512) :
    Matmul.wb V c t (ix2 q kk) = Wt V c (ix2 (colN (t.val / 8 % 2) q) (conN (t.val % 8) kk)) := by
  have hN : cfg1.N = 128 := N_1
  have ht := t.isLt
  have hq := q.isLt
  have hk := kk.isLt
  obtain ⟨-, -, e0, e1, -⟩ := idx_facts t
  show Matmul.iblk V c 1 t (ix2 q kk) = _
  unfold Matmul.iblk
  rw [View.read_apply]
  show V c main_v20 _ = V c main_v20 _
  congr 1
  funext a
  apply Fin.ext
  match a with
  | ⟨0, _⟩ => show win1_1.index t 0 * 2048 + 1 * q.val = (t.val / 8 % 2 * 2048 + q.val) % 4096; rw [e0]; omega
  | ⟨1, _⟩ => show win1_1.index t 1 * 512 + 1 * kk.val = (t.val % 8 * 512 + kk.val) % 4096; rw [e1]; omega

/-- the row-scale block rows i·1024 …; -/
theorem xsb_at (c : Dev nD) (t : Fin cfg1.N) (p : Fin 1024) :
    Matmul.xsb V c t (ix2 p 0) = Xs V c (ix2 (rowN (t.val / 16) p) 0) := by
  have hN : cfg1.N = 128 := N_1
  have ht := t.isLt
  have hp := p.isLt
  obtain ⟨-, -, -, -, e0, e1, -⟩ := idx_facts t
  show Matmul.iblk V c 2 t (ix2 p 0) = _
  unfold Matmul.iblk
  rw [View.read_apply]
  show V c main_v22_1 _ = V c main_v22_1 _
  congr 1
  funext a
  apply Fin.ext
  match a with
  | ⟨0, _⟩ => show win1_2.index t 0 * 1024 + 1 * p.val = (t.val / 16 * 1024 + p.val) % 8192; rw [e0]; omega
  | ⟨1, _⟩ => show win1_2.index t 1 * 1 + 1 * 0 = 0; rw [e1]

/-- the column-scale block columns j·2048 …. -/
theorem wsb_at (c : Dev nD) (t : Fin cfg1.N) (q : Fin 2048) :
    Matmul.wsb V c t (ix2 0 q) = Ws V c (ix2 0 (colN (t.val / 8 % 2) q)) := by
  have hN : cfg1.N = 128 := N_1
  have ht := t.isLt
  have hq := q.isLt
  obtain ⟨-, -, -, -, -, -, e0, e1, -⟩ := idx_facts t
  show Matmul.iblk V c 3 t (ix2 0 q) = _
  unfold Matmul.iblk
  rw [View.read_apply]
  show V c main_v21 _ = V c main_v21 _
  congr 1
  funext a
  apply Fin.ext
  match a with
  | ⟨0, _⟩ => show win1_3.index t 0 * 1 + 1 * 0 = 0; rw [e0]
  | ⟨1, _⟩ => show win1_3.index t 1 * 2048 + 1 * q.val = (t.val / 8 % 2 * 2048 + q.val) % 4096; rw [e1]; omega

/-! ## The accumulator over one run of the contraction axis -/

/-- The product of row block i with column block j over contraction block b, at (p, q). -/
def term (c : Dev nD) (i j b : ℕ) (p : Fin 1024) (q : Fin 2048) : EReal :=
  ∑ kk : Fin 512, Xq V c (ix2 (rowN i p) (conN b kk)) * Wt V c (ix2 (colN j q) (conN b kk))

/-- Point t's partial product is that term at t's three coordinates. -/
theorem prod_at (c : Dev nD) (t : Fin cfg1.N) (p : Fin 1024) (q : Fin 2048) :
    ∑ kk : Fin 512, Matmul.xb V c t (ix2 p kk) * Matmul.wb V c t (ix2 q kk)
      = term V c (t.val / 16) (t.val / 8 % 2) (t.val % 8) p q := by
  unfold term
  refine Finset.sum_congr rfl fun kk _ => ?_
  rw [xb_at, wb_at]

/-- From the point t0 where a run of the contraction axis starts, after d more points the scratch holds the sum of the
    first d + 1 partial products. -/
theorem acc_at (c : Dev nD) (t0 : ℕ) (h0 : t0 % 8 = 0) (p : Fin 1024) (q : Fin 2048) :
    ∀ (d : ℕ) (hd : d ≤ 7) (h : t0 + d < cfg1.N),
      Matmul.accAt V c (t0 + d) h (ix2 p q) = ∑ b ∈ Finset.range (d + 1), term V c (t0 / 16) (t0 / 8 % 2) b p q
  | 0, _, h => by
    have e : Matmul.accAt V c (t0 + 0) h = k1_pay2 (F := Ideal) (k1_pay1 (F := Ideal)) (Matmul.xb V c ⟨t0 + 0, h⟩) (Matmul.wb V c ⟨t0 + 0, h⟩) :=
      Matmul.accAt_first V c ⟨t0 + 0, h⟩ h0
    rw [e, pay2_at, pay1_at, zero_add, prod_at, Finset.sum_range_one]
    show term V c (t0 / 16) (t0 / 8 % 2) (t0 % 8) p q = _
    rw [h0]
  | d + 1, hd, h => by
    have hN : cfg1.N = 128 := N_1
    have hlt : t0 + d < cfg1.N := by omega
    have ih := acc_at c t0 h0 p q d (by omega) hlt
    have hne : ¬ (⟨t0 + (d + 1), h⟩ : Fin cfg1.N).val % 8 = 0 := by
      show ¬ (t0 + (d + 1)) % 8 = 0
      omega
    have e : Matmul.accAt V c (t0 + (d + 1)) h = k1_pay2 (F := Ideal) (Matmul.accAt V c (t0 + d) hlt) (Matmul.xb V c ⟨t0 + (d + 1), h⟩) (Matmul.wb V c ⟨t0 + (d + 1), h⟩) :=
      Matmul.accAt_next V c ⟨t0 + (d + 1), h⟩ hne
    rw [e, pay2_at, ih, prod_at, Finset.sum_range_succ _ (d + 1)]
    show _ + term V c ((t0 + (d + 1)) / 16) ((t0 + (d + 1)) / 8 % 2) ((t0 + (d + 1)) % 8) p q = _
    rw [show (t0 + (d + 1)) / 16 = t0 / 16 by omega, show (t0 + (d + 1)) / 8 % 2 = t0 / 8 % 2 by omega,
      show (t0 + (d + 1)) % 8 = d + 1 by omega]

/-! ## What a storing point writes back, and the whole array -/

theorem accAt_congr (c : Dev nD) {n n' : ℕ} (e : n = n') (h : n < cfg1.N) (h' : n' < cfg1.N) :
    Matmul.accAt V c n h = Matmul.accAt V c n' h' := by
  subst e; rfl

/-- Block b's contraction coordinates, as the specification names them. -/
theorem conN_eq (b : Fin 8) (kk : Fin 512) : conN b.val kk = Cert.Spec.kAt b kk :=
  Fin.ext (by
    show (b.val * 512 + kk.val) % 4096 = b.val * 512 + kk.val
    have := b.isLt; have := kk.isLt; omega)

section Result
variable (c : Dev nD) (X : FVec Ideal S8192x4096 .f32) (W : S4096x4096.Idx → BitVec 32) (ws : FVec Ideal S4096 .f32)
variable (hq : Xq V c = fun i => Cert.Spec.quant X (i 0) (i 1))
variable (hw : Wt V c = fun i => (((W i).toInt : ℝ) : EReal))
variable (hs : Xs V c = fun i => Cert.Spec.scale X (i 0))
variable (hws : Ws V c = fun i => ws (ix1 (i 1)))

include hq hw in
/-- One partial product is the specification's sum over that block of the contraction axis. -/
theorem term_eq (i j : ℕ) (b : Fin 8) (p : Fin 1024) (q : Fin 2048) :
    term V c i j b.val p q
      = ∑ kk : Fin 512, Cert.Spec.quant X (rowN i p) (Cert.Spec.kAt b kk) * Cert.Spec.wreal W (colN j q) (Cert.Spec.kAt b kk) := by
  unfold term
  refine Finset.sum_congr rfl fun kk _ => ?_
  rw [conN_eq, hq, hw]
  rfl

include hq hw hs hws in
/-- At a point that stores (k = 7), entry (p, q) of the stored block is the specification's entry at row
    i·1024 + p, column j·2048 + q. -/
theorem out_at (t : Fin cfg1.N) (h7 : t.val % 8 = 7) (p : Fin 1024) (q : Fin 2048) :
    Matmul.outAt V c t (ix2 p q) = Cert.Spec.outAt X W ws (rowN (t.val / 16) p) (colN (t.val / 8 % 2) q) := by
  have hN : cfg1.N = 128 := N_1
  have ht := t.isLt
  unfold Matmul.outAt
  rw [pay3_at, xsb_at, wsb_at,
    accAt_congr V c (show t.val = t.val - 7 + 7 by omega) t.isLt (by omega),
    acc_at V c (t.val - 7) (by omega) p q 7 le_rfl,
    show (t.val - 7) / 16 = t.val / 16 by omega, show (t.val - 7) / 8 % 2 = t.val / 8 % 2 by omega,
    Finset.sum_range]
  unfold Cert.Spec.outAt
  rw [Cert.Spec.sum_blocks, hs, hws]
  refine congrArg₂ (· * ·) (Finset.sum_congr rfl fun b _ => ?_) rfl
  exact term_eq V c X W hq hw _ _ b p q

include hq hw hs hws in
/-- What a storing point writes back is its block of the specification's array. -/
theorem flushed_eq (t : Fin cfg1.N) (hf : (cfg1.win 4).flush t = true) :
    (Matmul.dat (F := Ideal) V c).flushed 4 t = ((cfg1.win 4).blk t).view.read (Elt Ideal) (Cert.Spec.out X W ws) := by
  have hN : cfg1.N = 128 := N_1
  have ht := t.isLt
  have h7 : t.val % 8 = 7 := (flush1_4 t).mp hf
  obtain ⟨-, -, -, -, -, -, -, -, e0, e1⟩ := idx_facts t
  show (cfg1.win 4).cut (grid1.coords t) ((Matmul.dat (F := Ideal) V c).after 4 t) = _
  rw [Matmul.after_4]
  funext y
  have hy0 : (y 0).val < 1024 := (y 0).isLt
  have hy1 : (y 1).val < 2048 := (y 1).isLt
  rw [View.read_apply]
  have ey : (cfg1.win 4).xinj (grid1.coords t) y = (ix2 (⟨(y 0).val, hy0⟩ : Fin 1024) (⟨(y 1).val, hy1⟩ : Fin 2048) : S1024x2048.Idx) :=
    funext fun a => by match a with | ⟨0, _⟩ => rfl | ⟨1, _⟩ => rfl
  have eo : ((cfg1.win 4).blk t).view.emb y
      = (ix2 (rowN (t.val / 16) ⟨(y 0).val, hy0⟩) (colN (t.val / 8 % 2) ⟨(y 1).val, hy1⟩) : S8192x4096.Idx) := by
    funext a
    apply Fin.ext
    match a with
    | ⟨0, _⟩ => show win1_4.index t 0 * 1024 + 1 * (y 0).val = (t.val / 16 * 1024 + (y 0).val) % 8192; rw [e0]; omega
    | ⟨1, _⟩ => show win1_4.index t 1 * 2048 + 1 * (y 1).val = (t.val / 8 % 2 * 2048 + (y 1).val) % 4096; rw [e1]; omega
  show Matmul.outAt V c t ((cfg1.win 4).xinj (grid1.coords t) y) = Cert.Spec.out X W ws (((cfg1.win 4).blk t).view.emb y)
  rw [ey, eo, out_at V c X W ws hq hw hs hws t h7]
  rfl

/-- Every entry of the result lies in the block of the storing point of its row block and column block. -/
theorem cover (i : S8192x4096.Idx) :
    ∃ t : Fin cfg1.N, (cfg1.win 4).flush t = true ∧ i ∈ ((cfg1.win 4).blk t).view.set := by
  have hN : cfg1.N = 128 := N_1
  have h0 : (i 0).val < 8192 := (i 0).isLt
  have h1 : (i 1).val < 4096 := (i 1).isLt
  have hlt : ((i 0).val / 1024 * 2 + (i 1).val / 2048) * 8 + 7 < cfg1.N := by omega
  obtain ⟨-, -, -, -, -, -, -, -, e0, e1⟩ := idx_facts ⟨((i 0).val / 1024 * 2 + (i 1).val / 2048) * 8 + 7, hlt⟩
  refine ⟨⟨((i 0).val / 1024 * 2 + (i 1).val / 2048) * 8 + 7, hlt⟩, (flush1_4 _).mpr (by
    show (((i 0).val / 1024 * 2 + (i 1).val / 2048) * 8 + 7) % 8 = 7
    omega), ?_⟩
  show i ∈ ((View.whole main_v23).slice (win1_4.rect ⟨((i 0).val / 1024 * 2 + (i 1).val / 2048) * 8 + 7, hlt⟩)).set
  rw [View.set_slice_whole, Rect.mem_set_unit]
  intro a
  match a with
  | ⟨0, _⟩ =>
    show win1_4.index ⟨((i 0).val / 1024 * 2 + (i 1).val / 2048) * 8 + 7, hlt⟩ 0 * 1024 ≤ (i 0).val
      ∧ (i 0).val < win1_4.index ⟨((i 0).val / 1024 * 2 + (i 1).val / 2048) * 8 + 7, hlt⟩ 0 * 1024 + 1024
    rw [e0]
    show (((i 0).val / 1024 * 2 + (i 1).val / 2048) * 8 + 7) / 16 * 1024 ≤ (i 0).val
      ∧ (i 0).val < (((i 0).val / 1024 * 2 + (i 1).val / 2048) * 8 + 7) / 16 * 1024 + 1024
    omega
  | ⟨1, _⟩ =>
    show win1_4.index ⟨((i 0).val / 1024 * 2 + (i 1).val / 2048) * 8 + 7, hlt⟩ 1 * 2048 ≤ (i 1).val
      ∧ (i 1).val < win1_4.index ⟨((i 0).val / 1024 * 2 + (i 1).val / 2048) * 8 + 7, hlt⟩ 1 * 2048 + 2048
    rw [e1]
    show (((i 0).val / 1024 * 2 + (i 1).val / 2048) * 8 + 7) / 8 % 2 * 2048 ≤ (i 1).val
      ∧ (i 1).val < (((i 0).val / 1024 * 2 + (i 1).val / 2048) * 8 + 7) / 8 % 2 * 2048 + 2048
    omega

include hq hw hs hws in
/-- After the region the result array holds the specification's array. -/
theorem finalOut' : (Matmul.dat (F := Ideal) V c).arrAt 4 cfg1.N = Cert.Spec.out X W ws :=
  (Matmul.dat (F := Ideal) V c).arrAt_eq_of_cover 4 (Cert.Spec.out X W ws) (flushed_eq V c X W ws hq hw hs hws) cover

end Result

/-- The same, with the four arrays' contents given as the region's entry contents. -/
theorem finalOut (V : (c : Dev nD) → (b : Ref sig .tc) → Buf (Elt Ideal) ((c : Thread nD τ).loc b)) (c : Dev nD)
    (X : FVec Ideal S8192x4096 .f32) (W : S4096x4096.Idx → BitVec 32) (ws : FVec Ideal S4096 .f32)
    (hq : (V c main_v22_0 : S8192x4096.Idx → EReal) = fun i => Cert.Spec.quant X (i 0) (i 1))
    (hw : (V c main_v20 : S4096x4096.Idx → EReal) = fun i => (((W i).toInt : ℝ) : EReal))
    (hs : (V c main_v22_1 : S8192x1.Idx → EReal) = fun i => Cert.Spec.scale X (i 0))
    (hws : (V c main_v21 : S1x4096.Idx → EReal) = fun i => ws (ix1 (i 1))) :
    (Matmul.dat (F := Ideal) V c).arrAt 4 cfg1.N = Cert.Spec.out X W ws :=
  finalOut' V c X W ws hq hw hs hws

end Cert.KernelIdeal.MatmulValue

end
-- ==== Proof.lean ====
/-
  The certificate of the int4-quantised matmul: the kernel (an activation-quantisation region followed by a
  K-blocked matmul region with a scale epilogue) against its jnp reference, over the extended reals.

  Both programs compute, for activations x, packed weights wp and column scales ws,
      out (r, o) = (∑ k, quant x r k · W o k) · (scale x r · ws o),
  with scale x r = max (max_k |x r k| / 7) ε, quant x r k = min 7 (max (-8) (round-half-even (x r k / scale x r)))
  and W the integer matrix of the unpacked nibbles. The kernel accumulates the contraction in 8 blocks of 512 in a
  scratch that is carried from grid point to grid point; over the extended reals the blocked sum is the whole sum,
  with no appeal to finiteness. The frames are the run of the program as host stretches and two pipelined regions;
  the word-level program has the same text and its frame is the same argument read at machine words.
-/
import proofs.«422675_j1176821039708_3_alg».proof.Defs
import proofs.«422675_j1176821039708_3_alg».proof.Proof.Gen.Kernel
import proofs.«422675_j1176821039708_3_alg».proof.Proof.Gen.KernelIdeal
import proofs.«422675_j1176821039708_3_alg».proof.Proof.Gen.ReferenceIdeal
import proofs.«422675_j1176821039708_3_alg».proof.Proof.Gen.Pre_finite_inputs
import proofs.«422675_j1176821039708_3_alg».proof.Proof.Run
import proofs.«422675_j1176821039708_3_alg».proof.Proof.BitsRun
import proofs.«422675_j1176821039708_3_alg».proof.Proof.RefValue
import proofs.«422675_j1176821039708_3_alg».proof.Proof.HostValue
import proofs.«422675_j1176821039708_3_alg».proof.Proof.QuantValue
import proofs.«422675_j1176821039708_3_alg».proof.Proof.MatmulValue
import Idealize.ShloMosaic.Adequacy
import Idealize.ShloMosaic.Init

noncomputable section

namespace Cert.Proof

open Idealize.ShloMosaic Idealize.ShloMosaic.TcCoe Idealize.SL.Sem

/-- The word-level program runs to the end and keeps its arguments: the run of its items, the result forgotten. -/
theorem frame_k : Cert.frame_Kernel := fun m ρ _ =>
  (θ_run Cert.Kernel.defs _ _).mono (fun _ h c => (h c).2) (Cert.Kernel.Run.run_main (F := Bits) m ρ)

/-- The idealized program likewise. -/
theorem frame_ki : Cert.frame_KernelIdeal := fun m ρ _ =>
  (θ_run Cert.KernelIdeal.defs _ _).mono (fun _ h c => (h c).2) (Cert.KernelIdeal.Run.run_main (F := Ideal) m ρ)

/-- The reference is host operations only: its run, the result forgotten. -/
theorem frame_ri : Cert.frame_ReferenceIdeal := fun m ρ _ =>
  (θ_run Cert.ReferenceIdeal.defs _ _).mono (fun _ h c => (h c).2) (Cert.ReferenceIdeal.RefValue.run_out m ρ)

open Cert.KernelIdeal in
/-- What the matmul region's write-backs leave in the result array is the specification at the launch arguments. -/
theorem kernel_out (m : (ℓ : Loc Cert.KernelIdeal.nD Cert.KernelIdeal.τ Cert.KernelIdeal.sig) → Buf (Elt Ideal) ℓ) (c : Dev Cert.KernelIdeal.nD) :
    (Cert.KernelIdeal.Matmul.dat (F := Ideal) (Cert.KernelIdeal.Run.Vm m) c).arrAt 4 Cert.KernelIdeal.cfg1.N
      = Cert.Spec.out (m ((c.tc : Thread nD τ).loc main_arg0)) (Cert.ReferenceIdeal.RefValue.Wref (m ((c.tc : Thread nD τ).loc main_arg1))) (m ((c.tc : Thread nD τ).loc main_arg2)) := by
  have hw : (Cert.KernelIdeal.Run.Vm m c main_v20 : S4096x4096.Idx → EReal) = (fun i => ((((Cert.KernelIdeal.HostValue.Wker (m ((c.tc : Thread nD τ).loc main_arg1))) i).toInt : ℝ) : EReal)) :=
    (Cert.KernelIdeal.Run.W6_of_ne m c main_v20 (by decide)).trans (Cert.KernelIdeal.HostValue.V5_main_v20 m c)
  have hws : (Cert.KernelIdeal.Run.Vm m c main_v21 : S1x4096.Idx → EReal) = (fun i => (m ((c.tc : Thread nD τ).loc main_arg2)) (Idealize.ShloMosaic.ValueIdx.ix1 (i 1))) :=
    (Cert.KernelIdeal.Run.W6_of_ne m c main_v21 (by decide)).trans (Cert.KernelIdeal.HostValue.V5_main_v21 m c)
  have hx : Cert.KernelIdeal.Run.Vq m c main_arg0 = m ((c.tc : Thread nD τ).loc main_arg0) :=
    Cert.KernelIdeal.Run.V5_arg m c main_arg0 (by decide) (by decide) (by decide) (by decide) (by decide)
  have hq : (Cert.KernelIdeal.Run.Vm m c main_v22_0 : S8192x4096.Idx → EReal) = (fun i => Cert.Spec.quant (m ((c.tc : Thread nD τ).loc main_arg0)) (i 0) (i 1)) :=
    (Cert.KernelIdeal.Run.W6_arr m c 1).trans ((Cert.KernelIdeal.QuantValue.finalQ (Cert.KernelIdeal.Run.Vq m) c).trans (by rw [hx]; rfl))
  have hs : (Cert.KernelIdeal.Run.Vm m c main_v22_1 : S8192x1.Idx → EReal) = (fun i => Cert.Spec.scale (m ((c.tc : Thread nD τ).loc main_arg0)) (i 0)) :=
    (Cert.KernelIdeal.Run.W6_arr m c 2).trans ((Cert.KernelIdeal.QuantValue.finalS (Cert.KernelIdeal.Run.Vq m) c).trans (by rw [hx]; rfl))
  rw [← Cert.KernelIdeal.HostValue.Wker_eq_Wref]
  exact Cert.KernelIdeal.MatmulValue.finalOut (Cert.KernelIdeal.Run.Vm m) c _ _ _ hq hw hs hws

/-- Run from memories that agree on the arguments, both programs end with the specification's array. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (Cert.ReferenceIdeal.RefValue.Wref (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_out m c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.RefValue.run_out m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
